-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2000 : Shape := ⟨1, ![2000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S2000 32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x128 : Shape := ⟨2, ![100000, 128]⟩
abbrev S1600000 : Shape := ⟨1, ![1600000]⟩
abbrev S2000 : Shape := ⟨1, ![2000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1 : Shape := ⟨1, ![1]⟩
abbrev S1999 : Shape := ⟨1, ![1999]⟩
abbrev S2000x1 : Shape := ⟨2, ![2000, 1]⟩
abbrev S1x1 : Shape := ⟨2, ![1, 1]⟩
abbrev S2000x128 : Shape := ⟨2, ![2000, 128]⟩
abbrev S1x64 : Shape := ⟨2, ![1, 64]⟩
abbrev S2000x64 : Shape := ⟨2, ![2000, 64]⟩
abbrev S400x128 : Shape := ⟨2, ![400, 128]⟩
abbrev S400x64 : Shape := ⟨2, ![400, 64]⟩

abbrev nBuf : Space → Nat
  | .hbm => 123
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S2000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S2000, .i32⟩
  | .hbm, ⟨59, _⟩ => ⟨S1, .i32⟩
  | .hbm, ⟨60, _⟩ => ⟨S1999, .i32⟩
  | .hbm, ⟨61, _⟩ => ⟨S2000, .i32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S2000, .i32⟩
  | .hbm, ⟨66, _⟩ => ⟨S_, .i32⟩
  | .hbm, ⟨67, _⟩ => ⟨S_, .i32⟩
  | .hbm, ⟨68, _⟩ => ⟨S2000, .i32⟩
  | .hbm, ⟨69, _⟩ => ⟨S_, .i32⟩
  | .hbm, ⟨70, _⟩ => ⟨S100000, .i32⟩
  | .hbm, ⟨71, _⟩ => ⟨S_, .i32⟩
  | .hbm, ⟨72, _⟩ => ⟨S2000, .i32⟩
  | .hbm, ⟨73, _⟩ => ⟨S2000, .i1⟩
  | .hbm, ⟨74, _⟩ => ⟨S_, .i32⟩
  | .hbm, ⟨75, _⟩ => ⟨S2000, .i32⟩
  | .hbm, ⟨76, _⟩ => ⟨S2000, .i32⟩
  | .hbm, ⟨77, _⟩ => ⟨S2000, .i32⟩
  | .hbm, ⟨78, _⟩ => ⟨S2000x1, .i32⟩
  | .hbm, ⟨79, _⟩ => ⟨S_, .i32⟩
  | .hbm, ⟨80, _⟩ => ⟨S2000, .i32⟩
  | .hbm, ⟨81, _⟩ => ⟨S100000, .i32⟩
  | .hbm, ⟨82, _⟩ => ⟨S_, .i32⟩
  | .hbm, ⟨83, _⟩ => ⟨S_, .i32⟩
  | .hbm, ⟨84, _⟩ => ⟨S100000, .i32⟩
  | .hbm, ⟨85, _⟩ => ⟨S_, .i32⟩
  | .hbm, ⟨86, _⟩ => ⟨S100000, .i32⟩
  | .hbm, ⟨87, _⟩ => ⟨S100000, .i32⟩
  | .hbm, ⟨88, _⟩ => ⟨S_, .i32⟩
  | .hbm, ⟨89, _⟩ => ⟨S100000, .i32⟩
  | .hbm, ⟨90, _⟩ => ⟨S100000, .i1⟩
  | .hbm, ⟨91, _⟩ => ⟨S_, .i32⟩
  | .hbm, ⟨92, _⟩ => ⟨S100000, .i32⟩
  | .hbm, ⟨93, _⟩ => ⟨S100000, .i32⟩
  | .hbm, ⟨94, _⟩ => ⟨S100000, .i32⟩
  | .hbm, ⟨95, _⟩ => ⟨S100000x1, .i32⟩
  | .hbm, ⟨96, _⟩ => ⟨S1, .i32⟩
  | .hbm, ⟨97, _⟩ => ⟨S_, .i32⟩
  | .hbm, ⟨98, _⟩ => ⟨S100000x1, .i32⟩
  | .hbm, ⟨99, _⟩ => ⟨S100000x1, .i1⟩
  | .hbm, ⟨100, _⟩ => ⟨S1x1, .i32⟩
  | .hbm, ⟨101, _⟩ => ⟨S100000x1, .i32⟩
  | .hbm, ⟨102, _⟩ => ⟨S100000x1, .i1⟩
  | .hbm, ⟨103, _⟩ => ⟨S100000x1, .i1⟩
  | .hbm, ⟨104, _⟩ => ⟨S_, .i1⟩
  | .hbm, ⟨105, _⟩ => ⟨S100000, .i1⟩
  | .hbm, ⟨106, _⟩ => ⟨S100000, .i32⟩
  | .hbm, ⟨107, _⟩ => ⟨S_, .i32⟩
  | .hbm, ⟨108, _⟩ => ⟨S100000, .i32⟩
  | .hbm, ⟨109, _⟩ => ⟨S100000, .i32⟩
  | .hbm, ⟨110, _⟩ => ⟨S_, .f32⟩
  | .hbm, ⟨111, _⟩ => ⟨S2000x128, .f32⟩
  | .hbm, ⟨112, _⟩ => ⟨S100000x1, .i32⟩
  | .hbm, ⟨113, _⟩ => ⟨S2000x128, .f32⟩
  | .hbm, ⟨114, _⟩ => ⟨S2000, .f32⟩
  | .hbm, ⟨115, _⟩ => ⟨S_, .f32⟩
  | .hbm, ⟨116, _⟩ => ⟨S2000, .f32⟩
  | .hbm, ⟨117, _⟩ => ⟨S2000, .f32⟩
  | .hbm, ⟨118, _⟩ => ⟨S2000x1, .f32⟩
  | .hbm, ⟨119, _⟩ => ⟨S2000x128, .f32⟩
  | .hbm, ⟨120, _⟩ => ⟨S2000x128, .f32⟩
  | .hbm, ⟨121, _⟩ => ⟨S1x64, .f32⟩
  | .hbm, ⟨122, _⟩ => ⟨S2000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S400x128, .f32⟩
  | .local _ .vmem, ⟨13, _⟩ => ⟨S400x128, .f32⟩
  | .local _ .vmem, ⟨14, _⟩ => ⟨S128x64, .f32⟩
  | .local _ .vmem, ⟨15, _⟩ => ⟨S1x64, .f32⟩
  | .local _ .vmem, ⟨16, _⟩ => ⟨S400x64, .f32⟩
  | .local _ .vmem, ⟨17, _⟩ => ⟨S400x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_v0 : Ref sig .tc := ⟨.hbm, 59, rfl⟩
abbrev main_call0_v1 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_call1_call0_c : Ref sig .tc := ⟨.hbm, 66, rfl⟩
abbrev main_call1_call0_v0 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_call2_call0_c : Ref sig .tc := ⟨.hbm, 82, rfl⟩
abbrev main_call2_call0_v0 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_c_4 : Ref sig .tc := ⟨.hbm, 107, rfl⟩
abbrev main_call3_v14 : Ref sig .tc := ⟨.hbm, 108, rfl⟩
abbrev main_v55 : Ref sig .tc := ⟨.hbm, 109, rfl⟩
abbrev main_cst_15 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_16 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2000_S1_1999 : S2000.Slices ![1999] S1
  slices_S2000_S1999_0 : S2000.Slices ![0] S1999
  concatenates_S1_S1999_S2000_d0 : Shape.Concatenates [S1, S1999] S2000 0
  bcast_S_S1 : S_.BroadcastsInDim S1 (![] : Fin 0 → Fin S1.rank)
  bcast_S_S_ : S_.BroadcastsInDim S_ (![] : Fin 0 → Fin S_.rank)
  reduceWindows_S2000_S2000_w2000s1p1999_0 : S2000.ReduceWindows (![2000] : Fin 1 → Nat) ![1] ![1999] ![0] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  reduceWindows_S100000_S100000_w100000s1p99999_0 : S100000.ReduceWindows (![100000] : Fin 1 → Nat) ![1] ![99999] ![0] S100000
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S_S2000x128 : S_.BroadcastsInDim S2000x128 (![] : Fin 0 → Fin S2000x128.rank)
  bcast_S2000x1_S2000x128_0_1 : S2000x1.BroadcastsInDim S2000x128 (![0, 1] : Fin 2 → Fin S2000x128.rank)
  shapeCasts_S64_S1x64 : S64.ShapeCasts S1x64
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S2000_S1_S__n_0_0_0_wf : ScatterDims.WF S2000 S1 S_ [] [0] [0] 0
  scatter_S100000_S2000x1_S2000_n_0_0_1_wf : ScatterDims.WF S100000 S2000x1 S2000 [] [0] [0] 1
  gather_S2000_S100000x1_S100000_n_0_n_n_0_1_1_wf : GatherDims.WF S2000 S100000x1 S100000 [] [0] [] [0] [] 1 ![1]
  scatter_S2000x128_S100000x1_S100000x128_1_0_0_1_wf : ScatterDims.WF S2000x128 S100000x1 S100000x128 [1] [0] [0] 1
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x128.size a ≤ S2000x128.size a
  hwx2_0 : ∀ i : grid2.Coords, EltTy.bits .f32 = 32 ∨ (Rect.block (s := S2000x128) S400x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S2000x64.size a
  hwx2_3 : ∀ i : grid2.Coords, EltTy.bits .f32 = 32 ∨ (Rect.block (s := S2000x64) S400x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2000_S1_S__n_0_0_0 : ScatterDims S2000 S1 S_ where
  updateWindowDims := []
  insertedWindowDims := [0]
  scatterDimsToOperandDims := [0]
  indexVectorDim := 0
  wf := scatter_S2000_S1_S__n_0_0_0_wf
def scatter_S100000_S2000x1_S2000_n_0_0_1 : ScatterDims S100000 S2000x1 S2000 where
  updateWindowDims := []
  insertedWindowDims := [0]
  scatterDimsToOperandDims := [0]
  indexVectorDim := 1
  wf := scatter_S100000_S2000x1_S2000_n_0_0_1_wf
def gather_S2000_S100000x1_S100000_n_0_n_n_0_1_1 : GatherDims S2000 S100000x1 S100000 where
  offsetDims := []
  collapsedSliceDims := [0]
  operandBatchingDims := []
  startIndicesBatchingDims := []
  startIndexMap := [0]
  indexVectorDim := 1
  sliceSizes := ![1]
  wf := gather_S2000_S100000x1_S100000_n_0_n_n_0_1_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2000 : Shape := ⟨1, ![2000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1 : Shape := ⟨1, ![1]⟩
abbrev S1999 : Shape := ⟨1, ![1999]⟩
abbrev S2000x1 : Shape := ⟨2, ![2000, 1]⟩
abbrev S1x1 : Shape := ⟨2, ![1, 1]⟩
abbrev S2000x128 : Shape := ⟨2, ![2000, 128]⟩
abbrev S2000x64 : Shape := ⟨2, ![2000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S2000, .i32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x1, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S2000, .i32⟩
  | 69 => ⟨S1, .i32⟩
  | 70 => ⟨S1999, .i32⟩
  | 71 => ⟨S2000, .i32⟩
  | 72 => ⟨S_, .i32⟩
  | 73 => ⟨S1, .i32⟩
  | 74 => ⟨S_, .i32⟩
  | 75 => ⟨S2000, .i32⟩
  | 76 => ⟨S_, .i32⟩
  | 77 => ⟨S_, .i32⟩
  | 78 => ⟨S2000, .i32⟩
  | 79 => ⟨S_, .i32⟩
  | 80 => ⟨S100000, .i32⟩
  | 81 => ⟨S_, .i32⟩
  | 82 => ⟨S2000, .i32⟩
  | 83 => ⟨S2000, .i1⟩
  | 84 => ⟨S_, .i32⟩
  | 85 => ⟨S2000, .i32⟩
  | 86 => ⟨S2000, .i32⟩
  | 87 => ⟨S2000, .i32⟩
  | 88 => ⟨S2000x1, .i32⟩
  | 89 => ⟨S_, .i32⟩
  | 90 => ⟨S2000, .i32⟩
  | 91 => ⟨S100000, .i32⟩
  | 92 => ⟨S_, .i32⟩
  | 93 => ⟨S_, .i32⟩
  | 94 => ⟨S100000, .i32⟩
  | 95 => ⟨S_, .i32⟩
  | 96 => ⟨S100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S1, .i32⟩
  | 107 => ⟨S_, .i32⟩
  | 108 => ⟨S100000x1, .i32⟩
  | 109 => ⟨S100000x1, .i1⟩
  | 110 => ⟨S1x1, .i32⟩
  | 111 => ⟨S100000x1, .i32⟩
  | 112 => ⟨S100000x1, .i1⟩
  | 113 => ⟨S100000x1, .i1⟩
  | 114 => ⟨S_, .i1⟩
  | 115 => ⟨S100000, .i1⟩
  | 116 => ⟨S100000, .i32⟩
  | 117 => ⟨S_, .i32⟩
  | 118 => ⟨S100000, .i32⟩
  | 119 => ⟨S100000, .i32⟩
  | 120 => ⟨S_, .f32⟩
  | 121 => ⟨S2000x128, .f32⟩
  | 122 => ⟨S100000x1, .i32⟩
  | 123 => ⟨S2000x128, .f32⟩
  | 124 => ⟨S2000, .f32⟩
  | 125 => ⟨S_, .f32⟩
  | 126 => ⟨S2000, .f32⟩
  | 127 => ⟨S2000, .f32⟩
  | _ => ⟨S100000x128, .f32⟩

abbrev hbmTy0_1 (i : Nat) : BufTy := match i % 128 with
  | 0 => ⟨S2000x1, .f32⟩
  | 1 => ⟨S2000x128, .f32⟩
  | 2 => ⟨S2000x128, .f32⟩
  | 3 => ⟨S2000x64, .f32⟩
  | 4 => ⟨S1x64, .f32⟩
  | 5 => ⟨S2000x64, .f32⟩
  | 6 => ⟨S2000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_v44 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_call3_call0_c : Ref sig .tc := ⟨.hbm, 76, rfl⟩
abbrev main_call3_call0_v0 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_call4_call0_c : Ref sig .tc := ⟨.hbm, 92, rfl⟩
abbrev main_call4_call0_v0 : Ref sig .tc := ⟨.hbm, 93, rfl⟩
abbrev main_v58 : Ref sig .tc := ⟨.hbm, 94, rfl⟩
abbrev main_c_14 : Ref sig .tc := ⟨.hbm, 95, rfl⟩
abbrev main_v59 : Ref sig .tc := ⟨.hbm, 96, rfl⟩
abbrev main_v60 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_c_4 : Ref sig .tc := ⟨.hbm, 117, rfl⟩
abbrev main_call5_v14 : Ref sig .tc := ⟨.hbm, 118, rfl⟩
abbrev main_v61 : Ref sig .tc := ⟨.hbm, 119, rfl⟩
abbrev main_cst_15 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_16 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2000_S1_1999 : S2000.Slices ![1999] S1
  slices_S2000_S1999_0 : S2000.Slices ![0] S1999
  concatenates_S1_S1999_S2000_d0 : Shape.Concatenates [S1, S1999] S2000 0
  bcast_S_S1 : S_.BroadcastsInDim S1 (![] : Fin 0 → Fin S1.rank)
  bcast_S_S_ : S_.BroadcastsInDim S_ (![] : Fin 0 → Fin S_.rank)
  reduceWindows_S2000_S2000_w2000s1p1999_0 : S2000.ReduceWindows (![2000] : Fin 1 → Nat) ![1] ![1999] ![0] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  reduceWindows_S100000_S100000_w100000s1p99999_0 : S100000.ReduceWindows (![100000] : Fin 1 → Nat) ![1] ![99999] ![0] S100000
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S_S2000x128 : S_.BroadcastsInDim S2000x128 (![] : Fin 0 → Fin S2000x128.rank)
  bcast_S2000x1_S2000x128_0_1 : S2000x1.BroadcastsInDim S2000x128 (![0, 1] : Fin 2 → Fin S2000x128.rank)
  bcast_S64_S1x64_1 : S64.BroadcastsInDim S1x64 (![1] : Fin 1 → Fin S1x64.rank)
  bcast_S1x64_S2000x64_0_1 : S1x64.BroadcastsInDim S2000x64 (![0, 1] : Fin 2 → Fin S2000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2000_S1_S__n_0_0_0_wf : ScatterDims.WF S2000 S1 S_ [] [0] [0] 0
  scatter_S100000_S2000x1_S2000_n_0_0_1_wf : ScatterDims.WF S100000 S2000x1 S2000 [] [0] [0] 1
  gather_S2000_S100000x1_S100000_n_0_n_n_0_1_1_wf : GatherDims.WF S2000 S100000x1 S100000 [] [0] [] [0] [] 1 ![1]
  scatter_S2000x128_S100000x1_S100000x128_1_0_0_1_wf : ScatterDims.WF S2000x128 S100000x1 S100000x128 [1] [0] [0] 1
  dot_S2000x128_S128x64_S2000x64_1_0_0_1_n_n_wf : DotDims.WF S2000x128 S128x64 S2000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000_S1_S__n_0_0_0 : ScatterDims S2000 S1 S_ where
  updateWindowDims := []
  insertedWindowDims := [0]
  scatterDimsToOperandDims := [0]
  indexVectorDim := 0
  wf := scatter_S2000_S1_S__n_0_0_0_wf
def scatter_S100000_S2000x1_S2000_n_0_0_1 : ScatterDims S100000 S2000x1 S2000 where
  updateWindowDims := []
  insertedWindowDims := [0]
  scatterDimsToOperandDims := [0]
  indexVectorDim := 1
  wf := scatter_S100000_S2000x1_S2000_n_0_0_1_wf
def gather_S2000_S100000x1_S100000_n_0_n_n_0_1_1 : GatherDims S2000 S100000x1 S100000 where
  offsetDims := []
  collapsedSliceDims := [0]
  operandBatchingDims := []
  startIndicesBatchingDims := []
  startIndexMap := [0]
  indexVectorDim := 1
  sliceSizes := ![1]
  wf := gather_S2000_S100000x1_S100000_n_0_n_n_0_1_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

class Facts : Prop extends Facts₀ where

variable [Facts]
-- ==== Proof.RefRun.lean ====
/-
  The reference program runs as the straight line of its 125 host operations.

  Its @main calls small outlined functions (the clamp at 0, a roll by one, two running sums, a guarded table
  look-up and the select inside it); a call executes the callee's body on the operands, so with every body unfolded at
  its call @main is one sequence of operations. Every weakly fair execution of such a sequence terminates with each
  buffer at the fold of the operations over the launch contents; nothing else is claimed here.
-/
import proofs.«127578_j4595615007149_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main is the sequence of `ops`: the two windows of @main and the outlined bodies unfolded, sequencing
    reassociated to the right. -/
theorem main_eq (c : Dev nD) : main (F := F) c = seq ops := by
  simp only [main, main_part0, main_part1, fn_relu.body, fn_roll_static.body, fn_cumsum.body, fn_cumsum_0.body,
    fn_cumsum_1.body, fn_cumsum_2.body, fn_take.body, fn_where.body, seq, bind_assoc, pure_bind]

/-- No buffer of the program is scoped to a region. -/
theorem scopedRefs_eq : (Finset.univ.filter fun b : Ref sig .tc => b.isScoped) = ∅ := by decide
/-- Nor any semaphore. -/
theorem scopedSems_eq : (Finset.univ.filter fun sm : SemLoc sig => sm.isScoped .tc) = ∅ := by decide

/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.DenseSpec.lean ====
/-
  The dense stage both programs share, as a function of whole arrays at the extended reals.

  A node-feature array `x` of 128 columns is multiplied by a 128-column weight matrix `w`, a bias `β`
  (one number per output column) is added, and, in the two convolution layers, the result is clamped below at 0:

      reluAffine x w β (p, q) = max (∑ k < 128, x (p, k) · w (k, q) + β q) 0      (100000 rows, 128 columns)
      affine     x w β (p, q) =      ∑ k < 128, x (p, k) · w (k, q) + β q         (2000 rows, 64 columns)

  Nothing here mentions a program: the kernel's blocked matrix product and the reference's whole product are each
  shown equal to these, entry by entry.
-/
import Idealize.ShloMosaic.Lib.ValueIdx

noncomputable section

open scoped BigOperators

namespace Cert.DenseSpec

open Idealize.ShloMosaic Idealize.ShloMosaic.ValueIdx

/-- The node features: 100000 rows of 128. -/
abbrev Rows : Shape := ⟨2, ![100000, 128]⟩
/-- A square weight matrix. -/
abbrev Wsq : Shape := ⟨2, ![128, 128]⟩
/-- The pooled features: 2000 rows of 128. -/
abbrev Pool : Shape := ⟨2, ![2000, 128]⟩
/-- The output weight matrix. -/
abbrev Wlast : Shape := ⟨2, ![128, 64]⟩
/-- The result: 2000 rows of 64. -/
abbrev Out : Shape := ⟨2, ![2000, 64]⟩

/-- One entry of `x · w + β`: row `p` of `x` against column `q` of `w`, plus the column's bias. -/
def affineAt {R C : ℕ} (x : (⟨2, ![R, 128]⟩ : Shape).Idx → EReal) (w : (⟨2, ![128, C]⟩ : Shape).Idx → EReal)
    (β : Fin C → EReal) (p : Fin R) (q : Fin C) : EReal :=
  (∑ k : Fin 128, x (ix2 p k) * w (ix2 k q)) + β q

/-- A convolution layer's dense stage: `max (x · w + β) 0`, entry by entry. -/
def reluAffine (x : Rows.Idx → EReal) (w : Wsq.Idx → EReal) (β : Fin 128 → EReal) : Rows.Idx → EReal :=
  fun i => max (affineAt x w β (i 0) (i 1)) 0

/-- The output stage: `x · w + β`, entry by entry. -/
def affine (x : Pool.Idx → EReal) (w : Wlast.Idx → EReal) (β : Fin 64 → EReal) : Out.Idx → EReal :=
  fun i => affineAt x w β (i 0) (i 1)

end Cert.DenseSpec

end
-- ==== Proof.RefDense.lean ====
import proofs.«127578_j4595615007149_1_alg».proof.Proof.Gen.ReferenceIdeal
import proofs.«127578_j4595615007149_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.DenseValue

open Cert.ReferenceIdeal Cert.ReferenceIdeal.Gen Idealize.ShloMosaic Idealize.ShloMosaic.ValueIdx

/-! ## The two products' operand indices, axis by axis

At output entry `(p, q)` and contraction position `k` the left operand is read at `(p, k)` and the right one at `(k, q)`. -/

theorem lhs_dot_S100000x128_S128x128_S100000x128_1_0_0_1_n_n_0 (j : S100000x128.Idx) (k : dot_S100000x128_S128x128_S100000x128_1_0_0_1_n_n.contr.Idx) :
    (dot_S100000x128_S128x128_S100000x128_1_0_0_1_n_n.lhsIdx j k 0).val = (j 0).val := by
  simp [DotDims.lhsIdx, dot_S100000x128_S128x128_S100000x128_1_0_0_1_n_n]; rfl

theorem lhs_dot_S100000x128_S128x128_S100000x128_1_0_0_1_n_n_1 (j : S100000x128.Idx) (k : dot_S100000x128_S128x128_S100000x128_1_0_0_1_n_n.contr.Idx) :
    (dot_S100000x128_S128x128_S100000x128_1_0_0_1_n_n.lhsIdx j k 1).val = (k ⟨0, by decide⟩).val :=
  DotDims.lhsIdx_val_of_single _ rfl j k

theorem rhs_dot_S100000x128_S128x128_S100000x128_1_0_0_1_n_n_0 (j : S100000x128.Idx) (k : dot_S100000x128_S128x128_S100000x128_1_0_0_1_n_n.contr.Idx) :
    (dot_S100000x128_S128x128_S100000x128_1_0_0_1_n_n.rhsIdx j k 0).val = (k ⟨0, by decide⟩).val :=
  DotDims.rhsIdx_val_of_single _ rfl j k

theorem rhs_dot_S100000x128_S128x128_S100000x128_1_0_0_1_n_n_1 (j : S100000x128.Idx) (k : dot_S100000x128_S128x128_S100000x128_1_0_0_1_n_n.contr.Idx) :
    (dot_S100000x128_S128x128_S100000x128_1_0_0_1_n_n.rhsIdx j k 1).val = (j 1).val := by
  simp [DotDims.rhsIdx, dot_S100000x128_S128x128_S100000x128_1_0_0_1_n_n]; rfl

theorem lhs_dot_S2000x128_S128x64_S2000x64_1_0_0_1_n_n_0 (j : S2000x64.Idx) (k : dot_S2000x128_S128x64_S2000x64_1_0_0_1_n_n.contr.Idx) :
    (dot_S2000x128_S128x64_S2000x64_1_0_0_1_n_n.lhsIdx j k 0).val = (j 0).val := by
  simp [DotDims.lhsIdx, dot_S2000x128_S128x64_S2000x64_1_0_0_1_n_n]; rfl

theorem lhs_dot_S2000x128_S128x64_S2000x64_1_0_0_1_n_n_1 (j : S2000x64.Idx) (k : dot_S2000x128_S128x64_S2000x64_1_0_0_1_n_n.contr.Idx) :
    (dot_S2000x128_S128x64_S2000x64_1_0_0_1_n_n.lhsIdx j k 1).val = (k ⟨0, by decide⟩).val :=
  DotDims.lhsIdx_val_of_single _ rfl j k

theorem rhs_dot_S2000x128_S128x64_S2000x64_1_0_0_1_n_n_0 (j : S2000x64.Idx) (k : dot_S2000x128_S128x64_S2000x64_1_0_0_1_n_n.contr.Idx) :
    (dot_S2000x128_S128x64_S2000x64_1_0_0_1_n_n.rhsIdx j k 0).val = (k ⟨0, by decide⟩).val :=
  DotDims.rhsIdx_val_of_single _ rfl j k

theorem rhs_dot_S2000x128_S128x64_S2000x64_1_0_0_1_n_n_1 (j : S2000x64.Idx) (k : dot_S2000x128_S128x64_S2000x64_1_0_0_1_n_n.contr.Idx) :
    (dot_S2000x128_S128x64_S2000x64_1_0_0_1_n_n.rhsIdx j k 1).val = (j 1).val := by
  simp [DotDims.rhsIdx, dot_S2000x128_S128x64_S2000x64_1_0_0_1_n_n]; rfl

/-! ## The products, the bias and the zero splat at an entry -/

/-- An entry of the whole 100000 × 128 by 128 × 128 product: row `p` of `x` against column `q` of `w`. -/
theorem square_product_apply (x : FVec Ideal S100000x128 .f32) (w : FVec Ideal S128x128 .f32) (p : Fin 100000) (q : Fin 128) :
    Host.dotGeneral dot_S100000x128_S128x128_S100000x128_1_0_0_1_n_n none x w (ix2 p q) = ∑ k : Fin 128, x (ix2 p k) * w (ix2 k q) := by
  simp only [Host.dotGeneral]
  refine (Ideal.dotGeneral_apply dot_S100000x128_S128x128_S100000x128_1_0_0_1_n_n none _ x w (ix2 p q)).trans ?_
  refine (Equiv.sum_comp (contrEquiv1 dot_S100000x128_S128x128_S100000x128_1_0_0_1_n_n 128 rfl rfl).symm _).symm.trans ?_
  refine Finset.sum_congr rfl fun c _ => ?_
  have hk := contrEquiv1_symm_val dot_S100000x128_S128x128_S100000x128_1_0_0_1_n_n 128 rfl rfl c
  have hl : dot_S100000x128_S128x128_S100000x128_1_0_0_1_n_n.lhsIdx (ix2 p q) ((contrEquiv1 dot_S100000x128_S128x128_S100000x128_1_0_0_1_n_n 128 rfl rfl).symm c) = ix2 p c := by
    funext a; apply Fin.ext
    match a with
    | ⟨0, _⟩ => exact lhs_dot_S100000x128_S128x128_S100000x128_1_0_0_1_n_n_0 _ _
    | ⟨1, _⟩ => exact (lhs_dot_S100000x128_S128x128_S100000x128_1_0_0_1_n_n_1 _ _).trans hk
  have hr : dot_S100000x128_S128x128_S100000x128_1_0_0_1_n_n.rhsIdx (ix2 p q) ((contrEquiv1 dot_S100000x128_S128x128_S100000x128_1_0_0_1_n_n 128 rfl rfl).symm c) = ix2 c q := by
    funext a; apply Fin.ext
    match a with
    | ⟨0, _⟩ => exact (rhs_dot_S100000x128_S128x128_S100000x128_1_0_0_1_n_n_0 _ _).trans hk
    | ⟨1, _⟩ => exact rhs_dot_S100000x128_S128x128_S100000x128_1_0_0_1_n_n_1 _ _
  rw [hl, hr]

/-- An entry of the whole 2000 × 128 by 128 × 64 product: row `p` of `x` against column `q` of `w`. -/
theorem output_product_apply (x : FVec Ideal S2000x128 .f32) (w : FVec Ideal S128x64 .f32) (p : Fin 2000) (q : Fin 64) :
    Host.dotGeneral dot_S2000x128_S128x64_S2000x64_1_0_0_1_n_n none x w (ix2 p q) = ∑ k : Fin 128, x (ix2 p k) * w (ix2 k q) := by
  simp only [Host.dotGeneral]
  refine (Ideal.dotGeneral_apply dot_S2000x128_S128x64_S2000x64_1_0_0_1_n_n none _ x w (ix2 p q)).trans ?_
  refine (Equiv.sum_comp (contrEquiv1 dot_S2000x128_S128x64_S2000x64_1_0_0_1_n_n 128 rfl rfl).symm _).symm.trans ?_
  refine Finset.sum_congr rfl fun c _ => ?_
  have hk := contrEquiv1_symm_val dot_S2000x128_S128x64_S2000x64_1_0_0_1_n_n 128 rfl rfl c
  have hl : dot_S2000x128_S128x64_S2000x64_1_0_0_1_n_n.lhsIdx (ix2 p q) ((contrEquiv1 dot_S2000x128_S128x64_S2000x64_1_0_0_1_n_n 128 rfl rfl).symm c) = ix2 p c := by
    funext a; apply Fin.ext
    match a with
    | ⟨0, _⟩ => exact lhs_dot_S2000x128_S128x64_S2000x64_1_0_0_1_n_n_0 _ _
    | ⟨1, _⟩ => exact (lhs_dot_S2000x128_S128x64_S2000x64_1_0_0_1_n_n_1 _ _).trans hk
  have hr : dot_S2000x128_S128x64_S2000x64_1_0_0_1_n_n.rhsIdx (ix2 p q) ((contrEquiv1 dot_S2000x128_S128x64_S2000x64_1_0_0_1_n_n 128 rfl rfl).symm c) = ix2 c q := by
    funext a; apply Fin.ext
    match a with
    | ⟨0, _⟩ => exact (rhs_dot_S2000x128_S128x64_S2000x64_1_0_0_1_n_n_0 _ _).trans hk
    | ⟨1, _⟩ => exact rhs_dot_S2000x128_S128x64_S2000x64_1_0_0_1_n_n_1 _ _
  rw [hl, hr]

/-- The bias, first given a unit row axis and then repeated down the 100000 rows, reads its `q`-th number at `(p, q)`. -/
theorem row_bias_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  refine (broadcastInDim_apply ![0, 1] bcast_S1x128_S100000x128_0_1 _ (ix2 p q) (ix2 (0 : Fin 1) q) ?_).trans ?_
  · intro a
    match a with
    | ⟨0, _⟩ => rfl
    | ⟨1, _⟩ => rfl
  · refine broadcastInDim_apply ![1] bcast_S128_S1x128_1 b (ix2 (0 : Fin 1) q) (ix1 q) ?_
    intro a
    match a with
    | ⟨0, _⟩ => rfl

/-- The bias, first given a unit row axis and then repeated down the 2000 rows, reads its `q`-th number at `(p, q)`. -/
theorem output_bias_apply (b : FVec Ideal S64 .f32) (p : Fin 2000) (q : Fin 64) :
    broadcastInDim S2000x64 ![0, 1] bcast_S1x64_S2000x64_0_1 (broadcastInDim S1x64 ![1] bcast_S64_S1x64_1 b) (ix2 p q) = b (ix1 q) := by
  refine (broadcastInDim_apply ![0, 1] bcast_S1x64_S2000x64_0_1 _ (ix2 p q) (ix2 (0 : Fin 1) q) ?_).trans ?_
  · intro a
    match a with
    | ⟨0, _⟩ => rfl
    | ⟨1, _⟩ => rfl
  · refine broadcastInDim_apply ![1] bcast_S64_S1x64_1 b (ix2 (0 : Fin 1) q) (ix1 q) ?_
    intro a
    match a with
    | ⟨0, _⟩ => rfl

/-- The zero splat, spread from the scalar shape over the whole array, reads 0 at every entry. -/
theorem zero_splat_apply (i : S100000x128.Idx) :
    broadcastInDim S100000x128 ![] bcast_S_S100000x128 (constant (F := Ideal) S_ .f32 0x00000000#32) i = 0 := by
  refine (broadcastInDim_apply ![] bcast_S_S100000x128 _ i ix0 (fun a => a.elim0)).trans ?_
  exact (constant_apply _ _).trans Ideal.ofBits_zero_f32

/-! ## The two dense stages are the specification, entry by entry -/

theorem layer_dense (x : FVec Ideal S100000x128 .f32) (w : FVec Ideal S128x128 .f32) (b : FVec Ideal S128 .f32) :
    maximumf (addf (Host.dotGeneral dot_S100000x128_S128x128_S100000x128_1_0_0_1_n_n none x w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = Cert.DenseSpec.reluAffine x w (fun q => b (ix1 q)) := by
  funext i
  obtain ⟨p, q, rfl⟩ : ∃ (p : Fin 100000) (q : Fin 128), i = ix2 p q := ⟨i 0, i 1, eq_ix2 i⟩
  rw [maximumf_apply, addf_apply, square_product_apply, row_bias_apply, zero_splat_apply]
  rfl

theorem output_dense (x : FVec Ideal S2000x128 .f32) (w : FVec Ideal S128x64 .f32) (b : FVec Ideal S64 .f32) :
    addf (Host.dotGeneral dot_S2000x128_S128x64_S2000x64_1_0_0_1_n_n none x w)
        (broadcastInDim S2000x64 ![0, 1] bcast_S1x64_S2000x64_0_1 (broadcastInDim S1x64 ![1] bcast_S64_S1x64_1 b))
    = Cert.DenseSpec.affine x w (fun q => b (ix1 q)) := by
  funext i
  obtain ⟨p, q, rfl⟩ : ∃ (p : Fin 2000) (q : Fin 64), i = ix2 p q := ⟨i 0, i 1, eq_ix2 i⟩
  rw [addf_apply, output_product_apply, output_bias_apply]
  rfl

end Cert.ReferenceIdeal.DenseValue

end
-- ==== Proof.BridgeStretches.lean ====
/-
  The two programs stretch by stretch.

  Between the dense stages both programs run the same host operations on the same values: the in-degree and its
  reciprocal, the gather of sender rows and the sum over receivers, the scaling by the reciprocal degree; and, before the
  output stage, the graph index of every node (a roll, two running sums, a scatter and a guarded look-up), the sum of
  node rows per graph and the division by the node count. Each such stretch is a function of the few buffers it reads,
  and it is the SAME function in both programs: evaluated from contents that agree on those buffers, the two folds
  leave equal values in the buffer the next dense stage reads. Nothing here opens a gather or a sum: the two
  expressions are compared as they stand.

  A dense stage of the reference is three or four operations (matrix product, the bias broadcast twice, the sum, and in
  the two layers the maximum with a zero array): read back, its result is the dense specification of the stage's inputs.
  The kernel program reshapes the bias to one row before each pallas_call; that row, read at column q, is the bias at q.
-/
import proofs.«127578_j4595615007149_1_alg».proof.Proof.Gen.KernelIdeal.Frame
import proofs.«127578_j4595615007149_1_alg».proof.Proof.RefOps
import proofs.«127578_j4595615007149_1_alg».proof.Proof.RefDense
import proofs.«127578_j4595615007149_1_alg».proof.Proof.DenseSpec
import Idealize.ShloMosaic.Lib.StableHlo.Run
import Idealize.ShloMosaic.Lib.ValueLayout
import Idealize.ShloMosaic.PureOps.Ideal

noncomputable section

namespace Cert.Bridge

open Idealize.ShloMosaic Idealize.ShloMosaic.StableHlo Idealize.ShloMosaic.ValueIdx Idealize.SL.Sem

/-- Buffer contents of the kernel program's TensorCore, at the extended reals. -/
abbrev KV := Valuation Cert.KernelIdeal.τ Cert.KernelIdeal.sig (Elt Ideal)
/-- Buffer contents of the reference program's TensorCore, at the extended reals. -/
abbrev RV := Valuation Cert.ReferenceIdeal.τ Cert.ReferenceIdeal.sig (Elt Ideal)

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer that no operation of a line writes keeps its contents: each operation writes one buffer, and it is
    another one. -/
macro "keeps" : tactic => `(tactic| (
  refine StableHlo.after_of_forall_not_mem (b := _) _ _ (List.forall_iff_forall_mem.mp ?_)
  simp only [Cert.KernelIdeal.Gen.hostOps0, Cert.KernelIdeal.Gen.hostOps1, Cert.KernelIdeal.Gen.hostOps2, Cert.KernelIdeal.Gen.hostOps2_1, Cert.KernelIdeal.Gen.hostOps2_2, Cert.KernelIdeal.Gen.hostOps2_3, Cert.KernelIdeal.Gen.hostOps2_4, Cert.KernelIdeal.Gen.hostOps2_5, Cert.KernelIdeal.Gen.hostOps2_6, Cert.KernelIdeal.Gen.hostOps2_7, Cert.KernelIdeal.Gen.hostOps2_8, Cert.ReferenceIdeal.Hand.stretchA, Cert.ReferenceIdeal.Hand.denseA, Cert.ReferenceIdeal.Hand.stretchB, Cert.ReferenceIdeal.Hand.denseB, Cert.ReferenceIdeal.Hand.stretchC, Cert.ReferenceIdeal.Hand.denseC, Cert.ReferenceIdeal.Hand.ops,
    Cert.ReferenceIdeal.Hand.stretchC0, Cert.ReferenceIdeal.Hand.stretchC1, Cert.ReferenceIdeal.Hand.stretchC2, Cert.ReferenceIdeal.Hand.stretchC3, Cert.ReferenceIdeal.Hand.stretchC4, Cert.ReferenceIdeal.Hand.stretchC5, Cert.ReferenceIdeal.Hand.stretchC6, Cert.ReferenceIdeal.Hand.stretchC7, Cert.ReferenceIdeal.Hand.stretchC8,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The shared host stretches -/

set_option maxHeartbeats 1000000 in
/-- Before the first layer's dense stage: the normalized neighbour sum of the input features, from the features and the
    two index arrays. -/
theorem stretchA_value (VK : KV) (VR : RV) (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1)) (h2 : VR (Proc.devRef .tc Cert.ReferenceIdeal.main_arg2) = VK (Proc.devRef .tc Cert.KernelIdeal.main_arg2)) :
    after (Cert.ReferenceIdeal.Hand.stretchA (F := Ideal)) VR (Proc.devRef .tc Cert.ReferenceIdeal.main_v20) = after (Cert.KernelIdeal.Gen.hostOps0 (F := Ideal)) VK (Proc.devRef .tc Cert.KernelIdeal.main_v20) := by
  after_results_simp
  rw [h0, h1, h2]
  rfl

set_option maxHeartbeats 1000000 in
/-- The reciprocal in-degree, from the receivers. -/
theorem stretchA_invdeg (VK : KV) (VR : RV) (h2 : VR (Proc.devRef .tc Cert.ReferenceIdeal.main_arg2) = VK (Proc.devRef .tc Cert.KernelIdeal.main_arg2)) :
    after (Cert.ReferenceIdeal.Hand.stretchA (F := Ideal)) VR (Proc.devRef .tc Cert.ReferenceIdeal.main_v7) = after (Cert.KernelIdeal.Gen.hostOps0 (F := Ideal)) VK (Proc.devRef .tc Cert.KernelIdeal.main_v7) := by
  after_results_simp
  rw [h2]
  rfl

set_option maxHeartbeats 1000000 in
/-- Before the second layer's dense stage: the normalized neighbour sum of the first layer's output. -/
theorem stretchB_value (VK : KV) (VR : RV) (hx : VR (Proc.devRef .tc Cert.ReferenceIdeal.main_v25) = VK (Proc.devRef .tc Cert.KernelIdeal.main_v22))
    (h1 : VR (Proc.devRef .tc Cert.ReferenceIdeal.main_arg1) = VK (Proc.devRef .tc Cert.KernelIdeal.main_arg1)) (h2 : VR (Proc.devRef .tc Cert.ReferenceIdeal.main_arg2) = VK (Proc.devRef .tc Cert.KernelIdeal.main_arg2)) (h7 : VR (Proc.devRef .tc Cert.ReferenceIdeal.main_v7) = VK (Proc.devRef .tc Cert.KernelIdeal.main_v7)) :
    after (Cert.ReferenceIdeal.Hand.stretchB (F := Ideal)) VR (Proc.devRef .tc Cert.ReferenceIdeal.main_v38) = after (Cert.KernelIdeal.Gen.hostOps1 (F := Ideal)) VK (Proc.devRef .tc Cert.KernelIdeal.main_v35) := by
  after_results_simp
  rw [hx, h1, h2, h7]
  rfl

/-! ## The kernel program's bias rows -/

/-- The first layer's bias as one row, read at column `q`. -/
theorem kernel_biasA (VK : KV) (q : Fin 128) :
    after (Cert.KernelIdeal.Gen.hostOps0 (F := Ideal)) VK (Proc.devRef .tc Cert.KernelIdeal.main_v21) (ix2 (0 : Fin 1) q) = VK (Proc.devRef .tc Cert.KernelIdeal.main_arg5) (ix1 q) := by
  after_results_simp
  exact shapeCast_a_1a_apply _ _ 0 q

/-- The second layer's bias as one row, read at column `q`. -/
theorem kernel_biasB (VK : KV) (q : Fin 128) :
    after (Cert.KernelIdeal.Gen.hostOps1 (F := Ideal)) VK (Proc.devRef .tc Cert.KernelIdeal.main_v36) (ix2 (0 : Fin 1) q) = VK (Proc.devRef .tc Cert.KernelIdeal.main_arg7) (ix1 q) := by
  after_results_simp
  exact shapeCast_a_1a_apply _ _ 0 q

set_option maxHeartbeats 1000000 in
/-- The output stage's bias as one row, read at column `q`. -/
theorem kernel_biasC (VK : KV) (q : Fin 64) :
    (after (Cert.KernelIdeal.Gen.hostOps2_8 (F := Ideal)) (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) VK))))))))) (Proc.devRef .tc Cert.KernelIdeal.main_v65) (ix2 (0 : Fin 1) q) = VK (Proc.devRef .tc Cert.KernelIdeal.main_arg9) (ix1 q) := by
  after_results_simp
  exact shapeCast_a_1a_apply _ _ 0 q

/-! ## The reference's dense stages -/

/-- The first layer's dense stage of the reference. -/
theorem denseA_value (VR : RV) :
    after (Cert.ReferenceIdeal.Hand.denseA (F := Ideal)) VR (Proc.devRef .tc Cert.ReferenceIdeal.main_v25)
      = Cert.DenseSpec.reluAffine (VR (Proc.devRef .tc Cert.ReferenceIdeal.main_v20)) (VR (Proc.devRef .tc Cert.ReferenceIdeal.main_arg4)) (fun q => VR (Proc.devRef .tc Cert.ReferenceIdeal.main_arg5) (ix1 q)) := by
  after_results_simp
  exact Cert.ReferenceIdeal.DenseValue.layer_dense _ _ _

/-- The second layer's dense stage of the reference. -/
theorem denseB_value (VR : RV) :
    after (Cert.ReferenceIdeal.Hand.denseB (F := Ideal)) VR (Proc.devRef .tc Cert.ReferenceIdeal.main_v43)
      = Cert.DenseSpec.reluAffine (VR (Proc.devRef .tc Cert.ReferenceIdeal.main_v38)) (VR (Proc.devRef .tc Cert.ReferenceIdeal.main_arg6)) (fun q => VR (Proc.devRef .tc Cert.ReferenceIdeal.main_arg7) (ix1 q)) := by
  after_results_simp
  exact Cert.ReferenceIdeal.DenseValue.layer_dense _ _ _

/-- The output stage of the reference. -/
theorem denseC_value (VR : RV) :
    after (Cert.ReferenceIdeal.Hand.denseC (F := Ideal)) VR (Proc.devRef .tc Cert.ReferenceIdeal.main_v74)
      = Cert.DenseSpec.affine (VR (Proc.devRef .tc Cert.ReferenceIdeal.main_v70)) (VR (Proc.devRef .tc Cert.ReferenceIdeal.main_arg8)) (fun q => VR (Proc.devRef .tc Cert.ReferenceIdeal.main_arg9) (ix1 q)) := by
  after_results_simp
  exact Cert.ReferenceIdeal.DenseValue.output_dense _ _ _

end Cert.Bridge

end
-- ==== Proof.BridgeStretchC.lean ====
/-
  The last shared host stretch, part by part.

  Between the second layer and the output stage both programs compute the mean of the layer's output over each
  graph's nodes: the graph number of every node (from the node counts: a roll, a running sum, a mark at each graph's
  first node, a second running sum, a guarded look-up), the sum of rows per graph, the division by the node count.
  It is one long line in which several intermediate arrays are read three times; compared as one expression the two
  sides would be large. The line is cut where the kernel program's own stretches are cut, and each part is shown to be
  the same function of the one or two arrays it reads. Between the parts only "nobody wrote that buffer meanwhile" is
  used.
-/
import proofs.«127578_j4595615007149_1_alg».proof.Proof.BridgeStretches

noncomputable section

namespace Cert.Bridge

open Idealize.ShloMosaic Idealize.ShloMosaic.StableHlo Idealize.ShloMosaic.ValueIdx Idealize.SL.Sem

/-! ## The parts -/

set_option maxHeartbeats 1000000 in
/-- The graph numbers 0 … 1999. -/
theorem partC0 (VK : KV) (VR : RV)  :
    after (Cert.ReferenceIdeal.Hand.stretchC0 (F := Ideal)) VR (Proc.devRef .tc Cert.ReferenceIdeal.main_v44) = after (Cert.KernelIdeal.Gen.hostOps2 (F := Ideal)) VK (Proc.devRef .tc Cert.KernelIdeal.main_v38) := by
  after_results_simp

set_option maxHeartbeats 1000000 in
/-- The node counts rolled by one place. -/
theorem partC1 (VK : KV) (VR : RV) (h3 : VR (Proc.devRef .tc Cert.ReferenceIdeal.main_arg3) = VK (Proc.devRef .tc Cert.KernelIdeal.main_arg3)) :
    after (Cert.ReferenceIdeal.Hand.stretchC1 (F := Ideal)) VR (Proc.devRef .tc Cert.ReferenceIdeal.main_v45) = after (Cert.KernelIdeal.Gen.hostOps2_1 (F := Ideal)) VK (Proc.devRef .tc Cert.KernelIdeal.main_v39) := by
  after_results
  rw [h3]
  try rfl

set_option maxHeartbeats 1000000 in
/-- … with a 0 written in front. -/
theorem partC2 (VK : KV) (VR : RV) (h : VR (Proc.devRef .tc Cert.ReferenceIdeal.main_v45) = VK (Proc.devRef .tc Cert.KernelIdeal.main_v39)) :
    after (Cert.ReferenceIdeal.Hand.stretchC2 (F := Ideal)) VR (Proc.devRef .tc Cert.ReferenceIdeal.main_v47) = after (Cert.KernelIdeal.Gen.hostOps2_2 (F := Ideal)) VK (Proc.devRef .tc Cert.KernelIdeal.main_v41) := by
  after_results_simp
  rw [h]
  try rfl

set_option maxHeartbeats 1000000 in
/-- Their running sum: where each graph's nodes begin. -/
theorem partC3 (VK : KV) (VR : RV) (h : VR (Proc.devRef .tc Cert.ReferenceIdeal.main_v47) = VK (Proc.devRef .tc Cert.KernelIdeal.main_v41)) :
    after (Cert.ReferenceIdeal.Hand.stretchC3 (F := Ideal)) VR (Proc.devRef .tc Cert.ReferenceIdeal.main_v48) = after (Cert.KernelIdeal.Gen.hostOps2_3 (F := Ideal)) VK (Proc.devRef .tc Cert.KernelIdeal.main_v42) := by
  after_results_simp
  rw [h]
  try rfl

set_option maxHeartbeats 1000000 in
/-- A 1 added at every such beginning (negative positions wrapped once). -/
theorem partC4 (VK : KV) (VR : RV) (h : VR (Proc.devRef .tc Cert.ReferenceIdeal.main_v48) = VK (Proc.devRef .tc Cert.KernelIdeal.main_v42)) :
    after (Cert.ReferenceIdeal.Hand.stretchC4 (F := Ideal)) VR (Proc.devRef .tc Cert.ReferenceIdeal.main_v57) = after (Cert.KernelIdeal.Gen.hostOps2_4 (F := Ideal)) VK (Proc.devRef .tc Cert.KernelIdeal.main_v51) := by
  after_results_simp
  rw [h]
  try rfl

set_option maxHeartbeats 1000000 in
/-- The running sum of those marks. -/
theorem partC5 (VK : KV) (VR : RV) (h : VR (Proc.devRef .tc Cert.ReferenceIdeal.main_v57) = VK (Proc.devRef .tc Cert.KernelIdeal.main_v51)) :
    after (Cert.ReferenceIdeal.Hand.stretchC5 (F := Ideal)) VR (Proc.devRef .tc Cert.ReferenceIdeal.main_v58) = after (Cert.KernelIdeal.Gen.hostOps2_5 (F := Ideal)) VK (Proc.devRef .tc Cert.KernelIdeal.main_v52) := by
  after_results_simp
  rw [h]
  try rfl

set_option maxHeartbeats 1000000 in
/-- Minus one: each node's graph position. -/
theorem partC6 (VK : KV) (VR : RV) (h : VR (Proc.devRef .tc Cert.ReferenceIdeal.main_v58) = VK (Proc.devRef .tc Cert.KernelIdeal.main_v52)) :
    after (Cert.ReferenceIdeal.Hand.stretchC6 (F := Ideal)) VR (Proc.devRef .tc Cert.ReferenceIdeal.main_v60) = after (Cert.KernelIdeal.Gen.hostOps2_6 (F := Ideal)) VK (Proc.devRef .tc Cert.KernelIdeal.main_v54) := by
  after_results_simp
  rw [h]
  try rfl

set_option maxHeartbeats 1000000 in
/-- The guarded look-up of each node's graph number. -/
theorem partC7 (VK : KV) (VR : RV) (hi : VR (Proc.devRef .tc Cert.ReferenceIdeal.main_v44) = VK (Proc.devRef .tc Cert.KernelIdeal.main_v38)) (h : VR (Proc.devRef .tc Cert.ReferenceIdeal.main_v60) = VK (Proc.devRef .tc Cert.KernelIdeal.main_v54)) :
    after (Cert.ReferenceIdeal.Hand.stretchC7 (F := Ideal)) VR (Proc.devRef .tc Cert.ReferenceIdeal.main_v61) = after (Cert.KernelIdeal.Gen.hostOps2_7 (F := Ideal)) VK (Proc.devRef .tc Cert.KernelIdeal.main_v55) := by
  after_results_simp
  rw [hi, h]
  try rfl

set_option maxHeartbeats 1000000 in
/-- The sum of node rows per graph, divided by the node count clamped below at 1. -/
theorem partC8 (VK : KV) (VR : RV) (h : VR (Proc.devRef .tc Cert.ReferenceIdeal.main_v61) = VK (Proc.devRef .tc Cert.KernelIdeal.main_v55)) (hx : VR (Proc.devRef .tc Cert.ReferenceIdeal.main_v43) = VK (Proc.devRef .tc Cert.KernelIdeal.main_v37)) (h3 : VR (Proc.devRef .tc Cert.ReferenceIdeal.main_arg3) = VK (Proc.devRef .tc Cert.KernelIdeal.main_arg3)) :
    after (Cert.ReferenceIdeal.Hand.stretchC8 (F := Ideal)) VR (Proc.devRef .tc Cert.ReferenceIdeal.main_v70) = after (Cert.KernelIdeal.Gen.hostOps2_8 (F := Ideal)) VK (Proc.devRef .tc Cert.KernelIdeal.main_v64) := by
  after_results_simp
  rw [h, hx, h3]
  try rfl

/-! ## The contents after the first parts, in each program -/

/-- The kernel program's contents after parts 0 … 0. -/
abbrev kerC0 (V : KV) : KV := after (Cert.KernelIdeal.Gen.hostOps2 (F := Ideal)) V
/-- The reference's contents after parts 0 … 0. -/
abbrev refC0 (V : RV) : RV := after (Cert.ReferenceIdeal.Hand.stretchC0 (F := Ideal)) V
/-- The kernel program's contents after parts 0 … 1. -/
abbrev kerC1 (V : KV) : KV := after (Cert.KernelIdeal.Gen.hostOps2_1 (F := Ideal)) (kerC0 V)
/-- The reference's contents after parts 0 … 1. -/
abbrev refC1 (V : RV) : RV := after (Cert.ReferenceIdeal.Hand.stretchC1 (F := Ideal)) (refC0 V)
/-- The kernel program's contents after parts 0 … 2. -/
abbrev kerC2 (V : KV) : KV := after (Cert.KernelIdeal.Gen.hostOps2_2 (F := Ideal)) (kerC1 V)
/-- The reference's contents after parts 0 … 2. -/
abbrev refC2 (V : RV) : RV := after (Cert.ReferenceIdeal.Hand.stretchC2 (F := Ideal)) (refC1 V)
/-- The kernel program's contents after parts 0 … 3. -/
abbrev kerC3 (V : KV) : KV := after (Cert.KernelIdeal.Gen.hostOps2_3 (F := Ideal)) (kerC2 V)
/-- The reference's contents after parts 0 … 3. -/
abbrev refC3 (V : RV) : RV := after (Cert.ReferenceIdeal.Hand.stretchC3 (F := Ideal)) (refC2 V)
/-- The kernel program's contents after parts 0 … 4. -/
abbrev kerC4 (V : KV) : KV := after (Cert.KernelIdeal.Gen.hostOps2_4 (F := Ideal)) (kerC3 V)
/-- The reference's contents after parts 0 … 4. -/
abbrev refC4 (V : RV) : RV := after (Cert.ReferenceIdeal.Hand.stretchC4 (F := Ideal)) (refC3 V)
/-- The kernel program's contents after parts 0 … 5. -/
abbrev kerC5 (V : KV) : KV := after (Cert.KernelIdeal.Gen.hostOps2_5 (F := Ideal)) (kerC4 V)
/-- The reference's contents after parts 0 … 5. -/
abbrev refC5 (V : RV) : RV := after (Cert.ReferenceIdeal.Hand.stretchC5 (F := Ideal)) (refC4 V)
/-- The kernel program's contents after parts 0 … 6. -/
abbrev kerC6 (V : KV) : KV := after (Cert.KernelIdeal.Gen.hostOps2_6 (F := Ideal)) (kerC5 V)
/-- The reference's contents after parts 0 … 6. -/
abbrev refC6 (V : RV) : RV := after (Cert.ReferenceIdeal.Hand.stretchC6 (F := Ideal)) (refC5 V)
/-- The kernel program's contents after parts 0 … 7. -/
abbrev kerC7 (V : KV) : KV := after (Cert.KernelIdeal.Gen.hostOps2_7 (F := Ideal)) (kerC6 V)
/-- The reference's contents after parts 0 … 7. -/
abbrev refC7 (V : RV) : RV := after (Cert.ReferenceIdeal.Hand.stretchC7 (F := Ideal)) (refC6 V)

/-! ## The whole stretch -/

set_option maxHeartbeats 1000000 in
/-- Before the output stage: the mean of the second layer's output over each graph's nodes, from that output and the
    node counts, is the same array in both programs. -/
theorem stretchC_value (VK : KV) (VR : RV) (hx : VR (Proc.devRef .tc Cert.ReferenceIdeal.main_v43) = VK (Proc.devRef .tc Cert.KernelIdeal.main_v37))
    (h3 : VR (Proc.devRef .tc Cert.ReferenceIdeal.main_arg3) = VK (Proc.devRef .tc Cert.KernelIdeal.main_arg3)) :
    after (Cert.ReferenceIdeal.Hand.stretchC (F := Ideal)) VR (Proc.devRef .tc Cert.ReferenceIdeal.main_v70) = (after (Cert.KernelIdeal.Gen.hostOps2_8 (F := Ideal)) (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) VK))))))))) (Proc.devRef .tc Cert.KernelIdeal.main_v64) := by
  rw [Cert.ReferenceIdeal.Hand.stretchC_eq]
  simp only [after_append]
  have i0 : refC0 VR (Proc.devRef .tc Cert.ReferenceIdeal.main_v44) = kerC0 VK (Proc.devRef .tc Cert.KernelIdeal.main_v38) := partC0 VK VR
  have a0 : refC0 VR (Proc.devRef .tc Cert.ReferenceIdeal.main_arg3) = kerC0 VK (Proc.devRef .tc Cert.KernelIdeal.main_arg3) :=
    (show refC0 VR (Proc.devRef .tc Cert.ReferenceIdeal.main_arg3) = VR (Proc.devRef .tc Cert.ReferenceIdeal.main_arg3) by keeps).trans (h3.trans (show kerC0 VK (Proc.devRef .tc Cert.KernelIdeal.main_arg3) = VK (Proc.devRef .tc Cert.KernelIdeal.main_arg3) by keeps).symm)
  have i1 : refC1 VR (Proc.devRef .tc Cert.ReferenceIdeal.main_v45) = kerC1 VK (Proc.devRef .tc Cert.KernelIdeal.main_v39) := partC1 (kerC0 VK) (refC0 VR) a0
  have i2 : refC2 VR (Proc.devRef .tc Cert.ReferenceIdeal.main_v47) = kerC2 VK (Proc.devRef .tc Cert.KernelIdeal.main_v41) := partC2 (kerC1 VK) (refC1 VR) i1
  have i3 : refC3 VR (Proc.devRef .tc Cert.ReferenceIdeal.main_v48) = kerC3 VK (Proc.devRef .tc Cert.KernelIdeal.main_v42) := partC3 (kerC2 VK) (refC2 VR) i2
  have i4 : refC4 VR (Proc.devRef .tc Cert.ReferenceIdeal.main_v57) = kerC4 VK (Proc.devRef .tc Cert.KernelIdeal.main_v51) := partC4 (kerC3 VK) (refC3 VR) i3
  have i5 : refC5 VR (Proc.devRef .tc Cert.ReferenceIdeal.main_v58) = kerC5 VK (Proc.devRef .tc Cert.KernelIdeal.main_v52) := partC5 (kerC4 VK) (refC4 VR) i4
  have i6 : refC6 VR (Proc.devRef .tc Cert.ReferenceIdeal.main_v60) = kerC6 VK (Proc.devRef .tc Cert.KernelIdeal.main_v54) := partC6 (kerC5 VK) (refC5 VR) i5
  have j6 : refC6 VR (Proc.devRef .tc Cert.ReferenceIdeal.main_v44) = kerC6 VK (Proc.devRef .tc Cert.KernelIdeal.main_v38) :=
    ((((((show refC6 VR (Proc.devRef .tc Cert.ReferenceIdeal.main_v44) = refC5 VR (Proc.devRef .tc Cert.ReferenceIdeal.main_v44) by keeps).trans (show refC5 VR (Proc.devRef .tc Cert.ReferenceIdeal.main_v44) = refC4 VR (Proc.devRef .tc Cert.ReferenceIdeal.main_v44) by keeps)).trans (show refC4 VR (Proc.devRef .tc Cert.ReferenceIdeal.main_v44) = refC3 VR (Proc.devRef .tc Cert.ReferenceIdeal.main_v44) by keeps)).trans (show refC3 VR (Proc.devRef .tc Cert.ReferenceIdeal.main_v44) = refC2 VR (Proc.devRef .tc Cert.ReferenceIdeal.main_v44) by keeps)).trans (show refC2 VR (Proc.devRef .tc Cert.ReferenceIdeal.main_v44) = refC1 VR (Proc.devRef .tc Cert.ReferenceIdeal.main_v44) by keeps)).trans (show refC1 VR (Proc.devRef .tc Cert.ReferenceIdeal.main_v44) = refC0 VR (Proc.devRef .tc Cert.ReferenceIdeal.main_v44) by keeps)).trans (i0.trans ((((((show kerC6 VK (Proc.devRef .tc Cert.KernelIdeal.main_v38) = kerC5 VK (Proc.devRef .tc Cert.KernelIdeal.main_v38) by keeps).trans (show kerC5 VK (Proc.devRef .tc Cert.KernelIdeal.main_v38) = kerC4 VK (Proc.devRef .tc Cert.KernelIdeal.main_v38) by keeps)).trans (show kerC4 VK (Proc.devRef .tc Cert.KernelIdeal.main_v38) = kerC3 VK (Proc.devRef .tc Cert.KernelIdeal.main_v38) by keeps)).trans (show kerC3 VK (Proc.devRef .tc Cert.KernelIdeal.main_v38) = kerC2 VK (Proc.devRef .tc Cert.KernelIdeal.main_v38) by keeps)).trans (show kerC2 VK (Proc.devRef .tc Cert.KernelIdeal.main_v38) = kerC1 VK (Proc.devRef .tc Cert.KernelIdeal.main_v38) by keeps)).trans (show kerC1 VK (Proc.devRef .tc Cert.KernelIdeal.main_v38) = kerC0 VK (Proc.devRef .tc Cert.KernelIdeal.main_v38) by keeps)).symm)
  have i7 : refC7 VR (Proc.devRef .tc Cert.ReferenceIdeal.main_v61) = kerC7 VK (Proc.devRef .tc Cert.KernelIdeal.main_v55) := partC7 (kerC6 VK) (refC6 VR) j6 i6
  have x7 : refC7 VR (Proc.devRef .tc Cert.ReferenceIdeal.main_v43) = kerC7 VK (Proc.devRef .tc Cert.KernelIdeal.main_v37) :=
    ((((((((show refC7 VR (Proc.devRef .tc Cert.ReferenceIdeal.main_v43) = refC6 VR (Proc.devRef .tc Cert.ReferenceIdeal.main_v43) by keeps).trans (show refC6 VR (Proc.devRef .tc Cert.ReferenceIdeal.main_v43) = refC5 VR (Proc.devRef .tc Cert.ReferenceIdeal.main_v43) by keeps)).trans (show refC5 VR (Proc.devRef .tc Cert.ReferenceIdeal.main_v43) = refC4 VR (Proc.devRef .tc Cert.ReferenceIdeal.main_v43) by keeps)).trans (show refC4 VR (Proc.devRef .tc Cert.ReferenceIdeal.main_v43) = refC3 VR (Proc.devRef .tc Cert.ReferenceIdeal.main_v43) by keeps)).trans (show refC3 VR (Proc.devRef .tc Cert.ReferenceIdeal.main_v43) = refC2 VR (Proc.devRef .tc Cert.ReferenceIdeal.main_v43) by keeps)).trans (show refC2 VR (Proc.devRef .tc Cert.ReferenceIdeal.main_v43) = refC1 VR (Proc.devRef .tc Cert.ReferenceIdeal.main_v43) by keeps)).trans (show refC1 VR (Proc.devRef .tc Cert.ReferenceIdeal.main_v43) = refC0 VR (Proc.devRef .tc Cert.ReferenceIdeal.main_v43) by keeps)).trans (show refC0 VR (Proc.devRef .tc Cert.ReferenceIdeal.main_v43) = VR (Proc.devRef .tc Cert.ReferenceIdeal.main_v43) by keeps)).trans (hx.trans ((((((((show kerC7 VK (Proc.devRef .tc Cert.KernelIdeal.main_v37) = kerC6 VK (Proc.devRef .tc Cert.KernelIdeal.main_v37) by keeps).trans (show kerC6 VK (Proc.devRef .tc Cert.KernelIdeal.main_v37) = kerC5 VK (Proc.devRef .tc Cert.KernelIdeal.main_v37) by keeps)).trans (show kerC5 VK (Proc.devRef .tc Cert.KernelIdeal.main_v37) = kerC4 VK (Proc.devRef .tc Cert.KernelIdeal.main_v37) by keeps)).trans (show kerC4 VK (Proc.devRef .tc Cert.KernelIdeal.main_v37) = kerC3 VK (Proc.devRef .tc Cert.KernelIdeal.main_v37) by keeps)).trans (show kerC3 VK (Proc.devRef .tc Cert.KernelIdeal.main_v37) = kerC2 VK (Proc.devRef .tc Cert.KernelIdeal.main_v37) by keeps)).trans (show kerC2 VK (Proc.devRef .tc Cert.KernelIdeal.main_v37) = kerC1 VK (Proc.devRef .tc Cert.KernelIdeal.main_v37) by keeps)).trans (show kerC1 VK (Proc.devRef .tc Cert.KernelIdeal.main_v37) = kerC0 VK (Proc.devRef .tc Cert.KernelIdeal.main_v37) by keeps)).trans (show kerC0 VK (Proc.devRef .tc Cert.KernelIdeal.main_v37) = VK (Proc.devRef .tc Cert.KernelIdeal.main_v37) by keeps)).symm)
  have a7 : refC7 VR (Proc.devRef .tc Cert.ReferenceIdeal.main_arg3) = kerC7 VK (Proc.devRef .tc Cert.KernelIdeal.main_arg3) :=
    ((((((((show refC7 VR (Proc.devRef .tc Cert.ReferenceIdeal.main_arg3) = refC6 VR (Proc.devRef .tc Cert.ReferenceIdeal.main_arg3) by keeps).trans (show refC6 VR (Proc.devRef .tc Cert.ReferenceIdeal.main_arg3) = refC5 VR (Proc.devRef .tc Cert.ReferenceIdeal.main_arg3) by keeps)).trans (show refC5 VR (Proc.devRef .tc Cert.ReferenceIdeal.main_arg3) = refC4 VR (Proc.devRef .tc Cert.ReferenceIdeal.main_arg3) by keeps)).trans (show refC4 VR (Proc.devRef .tc Cert.ReferenceIdeal.main_arg3) = refC3 VR (Proc.devRef .tc Cert.ReferenceIdeal.main_arg3) by keeps)).trans (show refC3 VR (Proc.devRef .tc Cert.ReferenceIdeal.main_arg3) = refC2 VR (Proc.devRef .tc Cert.ReferenceIdeal.main_arg3) by keeps)).trans (show refC2 VR (Proc.devRef .tc Cert.ReferenceIdeal.main_arg3) = refC1 VR (Proc.devRef .tc Cert.ReferenceIdeal.main_arg3) by keeps)).trans (show refC1 VR (Proc.devRef .tc Cert.ReferenceIdeal.main_arg3) = refC0 VR (Proc.devRef .tc Cert.ReferenceIdeal.main_arg3) by keeps)).trans (show refC0 VR (Proc.devRef .tc Cert.ReferenceIdeal.main_arg3) = VR (Proc.devRef .tc Cert.ReferenceIdeal.main_arg3) by keeps)).trans (h3.trans ((((((((show kerC7 VK (Proc.devRef .tc Cert.KernelIdeal.main_arg3) = kerC6 VK (Proc.devRef .tc Cert.KernelIdeal.main_arg3) by keeps).trans (show kerC6 VK (Proc.devRef .tc Cert.KernelIdeal.main_arg3) = kerC5 VK (Proc.devRef .tc Cert.KernelIdeal.main_arg3) by keeps)).trans (show kerC5 VK (Proc.devRef .tc Cert.KernelIdeal.main_arg3) = kerC4 VK (Proc.devRef .tc Cert.KernelIdeal.main_arg3) by keeps)).trans (show kerC4 VK (Proc.devRef .tc Cert.KernelIdeal.main_arg3) = kerC3 VK (Proc.devRef .tc Cert.KernelIdeal.main_arg3) by keeps)).trans (show kerC3 VK (Proc.devRef .tc Cert.KernelIdeal.main_arg3) = kerC2 VK (Proc.devRef .tc Cert.KernelIdeal.main_arg3) by keeps)).trans (show kerC2 VK (Proc.devRef .tc Cert.KernelIdeal.main_arg3) = kerC1 VK (Proc.devRef .tc Cert.KernelIdeal.main_arg3) by keeps)).trans (show kerC1 VK (Proc.devRef .tc Cert.KernelIdeal.main_arg3) = kerC0 VK (Proc.devRef .tc Cert.KernelIdeal.main_arg3) by keeps)).trans (show kerC0 VK (Proc.devRef .tc Cert.KernelIdeal.main_arg3) = VK (Proc.devRef .tc Cert.KernelIdeal.main_arg3) by keeps)).symm)
  exact partC8 (kerC7 VK) (refC7 VR) i7 x7 a7

end Cert.Bridge

end
-- ==== Proof.DenseRegion0.lean ====
/-
  The first convolution layer's dense stage, as the kernel computes it, is the specification.

  The output array is written block by block: grid point t (of 20) loads rows 5000 t … 5000 t + 4999 of the input, the
  whole 128 × 128 weight matrix and the whole one-row bias, and stores max (rows · weights + bias, 0) into the same
  rows of the output. At the extended reals the changes of float format are the identity and the block product into
  a zero accumulator is the plain sum over the 128 contracted coordinates, so entry (p, q) of the stored block is
  the specification at row 5000 t + p, column q. Every row lies in exactly the block of point (row / 5000), so the
  blocks cover the array and the array after the region is the specification, entry by entry.
-/
import proofs.«127578_j4595615007149_1_alg».proof.Proof.Gen.KernelIdeal.Frame
import proofs.«127578_j4595615007149_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DenseValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-block access, however spelt. -/
theorem region0_hz : (![0, 0] : Fin 2 → Nat) = fun _ => 0 := funext fun a => by fin_cases a <;> rfl

/-! ## The block product at an entry -/

/-- Left operand of the product: on the row axis it reads the output's row. -/
theorem region0_lhs_0 (j : S5000x128.Idx) (k : dot_S5000x128_S128x128_S5000x128_1_0_0_1_n_n.contr.Idx) :
    (dot_S5000x128_S128x128_S5000x128_1_0_0_1_n_n.lhsIdx j k (0 : Fin S5000x128.rank)).val = (j 0).val := by
  simp [DotDims.lhsIdx, dot_S5000x128_S128x128_S5000x128_1_0_0_1_n_n]; rfl

/-- Left operand: on the column axis it reads the contracted coordinate. -/
theorem region0_lhs_1 (j : S5000x128.Idx) (k : dot_S5000x128_S128x128_S5000x128_1_0_0_1_n_n.contr.Idx) :
    (dot_S5000x128_S128x128_S5000x128_1_0_0_1_n_n.lhsIdx j k (1 : Fin S5000x128.rank)).val = (k ⟨0, by decide⟩).val :=
  dot_S5000x128_S128x128_S5000x128_1_0_0_1_n_n.lhsIdx_val_of_single (cl := (1 : Fin S5000x128.rank)) rfl j k

/-- Right operand: on the row axis it reads the contracted coordinate. -/
theorem region0_rhs_0 (j : S5000x128.Idx) (k : dot_S5000x128_S128x128_S5000x128_1_0_0_1_n_n.contr.Idx) :
    (dot_S5000x128_S128x128_S5000x128_1_0_0_1_n_n.rhsIdx j k (0 : Fin S128x128.rank)).val = (k ⟨0, by decide⟩).val :=
  dot_S5000x128_S128x128_S5000x128_1_0_0_1_n_n.rhsIdx_val_of_single (cr := (0 : Fin S128x128.rank)) rfl j k

/-- Right operand: on the column axis it reads the output's column. -/
theorem region0_rhs_1 (j : S5000x128.Idx) (k : dot_S5000x128_S128x128_S5000x128_1_0_0_1_n_n.contr.Idx) :
    (dot_S5000x128_S128x128_S5000x128_1_0_0_1_n_n.rhsIdx j k (1 : Fin S128x128.rank)).val = (j 1).val := by
  simp [DotDims.rhsIdx, dot_S5000x128_S128x128_S5000x128_1_0_0_1_n_n]; rfl

/-- A 5000 × 128 block times the 128 × 128 matrix into a zero accumulator, at entry (p, q): the sum over the
    contracted coordinate of the products of the entries. -/
theorem region0_matmul_apply {φ₁ φ₂ : FTy} (x : FVec Ideal S5000x128 φ₁) (w : FVec Ideal S128x128 φ₂) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact region0_lhs_0 _ _
    | ⟨1, _⟩ => exact (region0_lhs_1 _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (region0_rhs_0 _ _).trans hk
    | ⟨1, _⟩ => exact region0_rhs_1 _ _
  rw [hl, hr]

/-! ## The body's stored value at an entry -/

/-- What the body stores, at entry (p, q) of the block: row p of the loaded rows against column q of the weight
    matrix, plus the bias of column q, clamped below at 0. The changes of float format are the identity on extended
    reals and the two same-shape casts move nothing; the one-row bias is read at row 0 whatever p is. -/
theorem region0_pay_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  have hx : shapeCast S5000x128 x0 shapeCasts_S5000x128_S5000x128 = x0 := shapeCast_self x0 _
  have hb : shapeCast S1x128 x2 shapeCasts_S1x128_S1x128 = x2 := shapeCast_self x2 _
  rw [hx, hb]
  have hm := region0_matmul_apply (truncf FTy.bf16 x0 bitsLt_bf16_f32) (truncf FTy.bf16 x1 bitsLt_bf16_f32) p q
  have hr : broadcastTo S5000x128 x2 broadcasts_S1x128_S5000x128 (ix2 p q) = x2 (ix2 (0 : Fin 1) q) :=
    broadcastTo_apply x2 broadcasts_S1x128_S5000x128 (ix2 p q) (ix2 (0 : Fin 1) q)
      (fun a => by match a with | ⟨0, _⟩ => rfl | ⟨1, _⟩ => rfl)
  have h0 : (broadcast S5000x128 (FloatOps.ofBits (F := Ideal) FTy.f32 0#32) : FVec Ideal S5000x128 .f32) (ix2 p q) = (0 : EReal) :=
    Ideal.ofBits_zero_f32
  exact congrArg₂ max (congrArg₂ (· + ·) hm hr) h0

/-! ## From the blocks to the array -/

/-- Where each window's block sits at grid point t: the row blocks of the input and of the output are block t
    of their arrays (column block 0); the weight matrix and the bias row are block (0, 0), the whole array,
    at every point. Decided over the 20 points. -/
theorem region0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the input's block at point t is entry (5000 t + p, k) of the input array. -/
theorem region0_rows_apply (V : (c : Dev nD) → (b : Ref sig .tc) → Buf (Elt Ideal) ((c : Thread nD τ).loc b)) (c : Dev nD)
    (t : Fin cfg0.N) (p : Fin 5000) (k : Fin 128) (r : Fin 100000) (hr : r.val = t.val * 5000 + p.val) :
    (iblk0 (F := Ideal) V c 0 t : Vec Ideal S5000x128 .f32) (ix2 p k) = V c main_v20 (ix2 r k) := by
  obtain ⟨e0, e1, -⟩ := region0_idx_facts t
  show V c main_v20 (((cfg0.win 0).blk t).view.emb (ix2 p k)) = V c main_v20 (ix2 r k)
  refine congrArg (V c main_v20) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's block at every point is the weight matrix. -/
theorem region0_weight_apply (V : (c : Dev nD) → (b : Ref sig .tc) → Buf (Elt Ideal) ((c : Thread nD τ).loc b)) (c : Dev nD)
    (t : Fin cfg0.N) (k q : Fin 128) :
    (iblk0 (F := Ideal) V c 1 t : Vec Ideal S128x128 .f32) (ix2 k q) = V c main_arg4 (ix2 k q) := by
  obtain ⟨-, -, e2, e3, -⟩ := region0_idx_facts t
  show V c main_arg4 (((cfg0.win 1).blk t).view.emb (ix2 k q)) = V c main_arg4 (ix2 k q)
  refine congrArg (V c main_arg4) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's block at every point is the bias row. -/
theorem region0_bias_apply (V : (c : Dev nD) → (b : Ref sig .tc) → Buf (Elt Ideal) ((c : Thread nD τ).loc b)) (c : Dev nD)
    (t : Fin cfg0.N) (q : Fin 128) :
    (iblk0 (F := Ideal) V c 2 t : Vec Ideal S1x128 .f32) (ix2 (0 : Fin 1) q) = V c main_v21 (ix2 (0 : Fin 1) q) := by
  obtain ⟨-, -, -, -, e4, e5, -⟩ := region0_idx_facts t
  show V c main_v21 (((cfg0.win 2).blk t).view.emb (ix2 (0 : Fin 1) q)) = V c main_v21 (ix2 (0 : Fin 1) q)
  refine congrArg (V c main_v21) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- The body's stored value at (p, q), when row p of the loaded rows is row r of an array X, column q of the loaded
    matrix is column q of W, and the loaded bias row agrees with B at column q, is the specification of X, W, B at
    entry (r, q). -/
theorem region0_block_value (x0 : Vec Ideal S5000x128 .f32) (x1 : Vec Ideal S128x128 .f32) (x2 : Vec Ideal S1x128 .f32)
    (X : Cert.DenseSpec.Rows.Idx → EReal) (W : Cert.DenseSpec.Wsq.Idx → EReal) (B : S1x128.Idx → EReal)
    (p : Fin 5000) (q : Fin 128) (r : Fin 100000)
    (hx : ∀ k : Fin 128, x0 (ix2 p k) = X (ix2 r k))
    (hw : ∀ k : Fin 128, x1 (ix2 k q) = W (ix2 k q))
    (hb : x2 (ix2 (0 : Fin 1) q) = B (ix2 (0 : Fin 1) q)) :
    k0_pay1 (F := Ideal) x0 x1 x2 (ix2 p q)
      = Cert.DenseSpec.reluAffine X W (fun q => B (ix2 (0 : Fin 1) q)) (ix2 r q) := by
  rw [region0_pay_apply, hb]
  show _ = max ((∑ k : Fin 128, X (ix2 r k) * W (ix2 k q)) + B (ix2 (0 : Fin 1) q)) 0
  rw [Finset.sum_congr rfl fun k _ => by rw [hx k, hw k]]

/-- WHAT POINT t WRITES BACK is block t of the specification of the arrays as the region finds them. -/
theorem region0_flushed_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal)
          (Cert.DenseSpec.reluAffine (V c main_v20) (V c main_arg4) (fun q => V c main_v21 (ix2 (0 : Fin 1) q))) := by
  show (cfg0.win 3).cut (grid0.coords t) ((dat0 V c).after 3 t) = _
  rw [after0_3]
  unfold out0_3
  rw [View.canon_unit_zero region0_hz]
  simp only [View.ld_unit_zero (S := S5000x128) region0_hz, View.ld_unit_zero (S := S128x128) region0_hz,
    View.ld_unit_zero (S := S1x128) region0_hz]
  funext j
  obtain ⟨p, q, rfl⟩ : ∃ (p : Fin 5000) (q : Fin 128), j = ix2 p q := ⟨j 0, j 1, eq_ix2 (n0 := 5000) (n1 := 128) j⟩
  obtain ⟨-, -, -, -, -, -, e6, e7⟩ := region0_idx_facts t
  have ht : t.val < 20 := lt_of_lt_of_eq t.isLt N_0
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
      = Cert.DenseSpec.reluAffine (V c main_v20) (V c main_arg4) (fun q => V c main_v21 (ix2 (0 : Fin 1) q))
          (((cfg0.win 3).blk t).view.emb (ix2 p q))
  rw [hemb]
  exact region0_block_value (iblk0 V c 0 t) (iblk0 V c 1 t) (iblk0 V c 2 t) (V c main_v20) (V c main_arg4) (V c main_v21)
    p q ⟨t.val * 5000 + p.val, by omega⟩
    (fun k => region0_rows_apply V c t p k ⟨t.val * 5000 + p.val, by omega⟩ rfl)
    (fun k => region0_weight_apply V c t k q) (region0_bias_apply V c t q)

/-- An index of the output array is in point t's block iff each coordinate is in the block's range on its axis. -/
theorem region0_mem_blk (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v22).slice (win0_3.rect t)).set ↔ _
  rw [View.set_slice_whole, Rect.mem_set_unit]
  exact Iff.rfl

/-- Every entry of the output array is written by some point: row r by point r / 5000. -/
theorem region0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, e6, e7⟩ := region0_idx_facts t
  refine ⟨t, flush0_3 t, ?_⟩
  rw [region0_mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY after the region is the specification of the input, weight and bias arrays as the region finds
    them, entry by entry: every point writes its block of it, and the blocks cover the array. -/
theorem region0_value (V : (c : Dev nD) → (b : Ref sig .tc) → Buf (Elt Ideal) ((c : Thread nD τ).loc b)) (c : Dev nD) :
    (dat0 (F := Ideal) V c).arrAt 3 cfg0.N
      = Cert.DenseSpec.reluAffine (V c main_v20) (V c main_arg4) (fun q => V c main_v21 (ix2 (0 : Fin 1) q)) :=
  (dat0 (F := Ideal) V c).arrAt_eq_of_cover 3 _ (fun t _ => region0_flushed_eq V c t) region0_cover

end Cert.KernelIdeal.DenseValue

end
-- ==== Proof.DenseRegion1.lean ====
/- GENERATED by a script of this unit, run in the unit directory: sh scratch/mk_region1.sh > proof/Proof/DenseRegion1.lean
   proof/Proof/DenseRegion0.lean (the first layer's pallas_call) with the first call's names replaced by the second call's:
   the same kernel function at the same sizes, over the second layer's arrays. -/
/-
  The second convolution layer's dense stage, as the kernel computes it, is the specification.

  The output array is written block by block: grid point t (of 20) loads rows 5000 t … 5000 t + 4999 of the input, the
  whole 128 × 128 weight matrix and the whole one-row bias, and stores max (rows · weights + bias, 0) into the same
  rows of the output. At the extended reals the changes of float format are the identity and the block product into
  a zero accumulator is the plain sum over the 128 contracted coordinates, so entry (p, q) of the stored block is
  the specification at row 5000 t + p, column q. Every row lies in exactly the block of point (row / 5000), so the
  blocks cover the array and the array after the region is the specification, entry by entry.
-/
import proofs.«127578_j4595615007149_1_alg».proof.Proof.Gen.KernelIdeal.Frame
import proofs.«127578_j4595615007149_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DenseValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-block access, however spelt. -/
theorem region1_hz : (![0, 0] : Fin 2 → Nat) = fun _ => 0 := funext fun a => by fin_cases a <;> rfl

/-! ## The block product at an entry -/

/-- Left operand of the product: on the row axis it reads the output's row. -/
theorem region1_lhs_0 (j : S5000x128.Idx) (k : dot_S5000x128_S128x128_S5000x128_1_0_0_1_n_n.contr.Idx) :
    (dot_S5000x128_S128x128_S5000x128_1_0_0_1_n_n.lhsIdx j k (0 : Fin S5000x128.rank)).val = (j 0).val := by
  simp [DotDims.lhsIdx, dot_S5000x128_S128x128_S5000x128_1_0_0_1_n_n]; rfl

/-- Left operand: on the column axis it reads the contracted coordinate. -/
theorem region1_lhs_1 (j : S5000x128.Idx) (k : dot_S5000x128_S128x128_S5000x128_1_0_0_1_n_n.contr.Idx) :
    (dot_S5000x128_S128x128_S5000x128_1_0_0_1_n_n.lhsIdx j k (1 : Fin S5000x128.rank)).val = (k ⟨0, by decide⟩).val :=
  dot_S5000x128_S128x128_S5000x128_1_0_0_1_n_n.lhsIdx_val_of_single (cl := (1 : Fin S5000x128.rank)) rfl j k

/-- Right operand: on the row axis it reads the contracted coordinate. -/
theorem region1_rhs_0 (j : S5000x128.Idx) (k : dot_S5000x128_S128x128_S5000x128_1_0_0_1_n_n.contr.Idx) :
    (dot_S5000x128_S128x128_S5000x128_1_0_0_1_n_n.rhsIdx j k (0 : Fin S128x128.rank)).val = (k ⟨0, by decide⟩).val :=
  dot_S5000x128_S128x128_S5000x128_1_0_0_1_n_n.rhsIdx_val_of_single (cr := (0 : Fin S128x128.rank)) rfl j k

/-- Right operand: on the column axis it reads the output's column. -/
theorem region1_rhs_1 (j : S5000x128.Idx) (k : dot_S5000x128_S128x128_S5000x128_1_0_0_1_n_n.contr.Idx) :
    (dot_S5000x128_S128x128_S5000x128_1_0_0_1_n_n.rhsIdx j k (1 : Fin S128x128.rank)).val = (j 1).val := by
  simp [DotDims.rhsIdx, dot_S5000x128_S128x128_S5000x128_1_0_0_1_n_n]; rfl

/-- A 5000 × 128 block times the 128 × 128 matrix into a zero accumulator, at entry (p, q): the sum over the
    contracted coordinate of the products of the entries. -/
theorem region1_matmul_apply {φ₁ φ₂ : FTy} (x : FVec Ideal S5000x128 φ₁) (w : FVec Ideal S128x128 φ₂) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact region1_lhs_0 _ _
    | ⟨1, _⟩ => exact (region1_lhs_1 _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (region1_rhs_0 _ _).trans hk
    | ⟨1, _⟩ => exact region1_rhs_1 _ _
  rw [hl, hr]

/-! ## The body's stored value at an entry -/

/-- What the body stores, at entry (p, q) of the block: row p of the loaded rows against column q of the weight
    matrix, plus the bias of column q, clamped below at 0. The changes of float format are the identity on extended
    reals and the two same-shape casts move nothing; the one-row bias is read at row 0 whatever p is. -/
theorem region1_pay_apply (x0 : Vec Ideal S5000x128 .f32) (x1 : Vec Ideal S128x128 .f32) (x2 : Vec Ideal S1x128 .f32)
    (p : Fin 5000) (q : Fin 128) :
    k1_pay1 (F := Ideal) x0 x1 x2 (ix2 p q)
      = max ((∑ k : Fin 128, x0 (ix2 p k) * x1 (ix2 k q)) + x2 (ix2 (0 : Fin 1) q)) 0 := by
  unfold k1_pay1
  have hx : shapeCast S5000x128 x0 shapeCasts_S5000x128_S5000x128 = x0 := shapeCast_self x0 _
  have hb : shapeCast S1x128 x2 shapeCasts_S1x128_S1x128 = x2 := shapeCast_self x2 _
  rw [hx, hb]
  have hm := region1_matmul_apply (truncf FTy.bf16 x0 bitsLt_bf16_f32) (truncf FTy.bf16 x1 bitsLt_bf16_f32) p q
  have hr : broadcastTo S5000x128 x2 broadcasts_S1x128_S5000x128 (ix2 p q) = x2 (ix2 (0 : Fin 1) q) :=
    broadcastTo_apply x2 broadcasts_S1x128_S5000x128 (ix2 p q) (ix2 (0 : Fin 1) q)
      (fun a => by match a with | ⟨0, _⟩ => rfl | ⟨1, _⟩ => rfl)
  have h0 : (broadcast S5000x128 (FloatOps.ofBits (F := Ideal) FTy.f32 0#32) : FVec Ideal S5000x128 .f32) (ix2 p q) = (0 : EReal) :=
    Ideal.ofBits_zero_f32
  exact congrArg₂ max (congrArg₂ (· + ·) hm hr) h0

/-! ## From the blocks to the array -/

/-- Where each window's block sits at grid point t: the row blocks of the input and of the output are block t
    of their arrays (column block 0); the weight matrix and the bias row are block (0, 0), the whole array,
    at every point. Decided over the 20 points. -/
theorem region1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the input's block at point t is entry (5000 t + p, k) of the input array. -/
theorem region1_rows_apply (V : (c : Dev nD) → (b : Ref sig .tc) → Buf (Elt Ideal) ((c : Thread nD τ).loc b)) (c : Dev nD)
    (t : Fin cfg1.N) (p : Fin 5000) (k : Fin 128) (r : Fin 100000) (hr : r.val = t.val * 5000 + p.val) :
    (iblk1 (F := Ideal) V c 0 t : Vec Ideal S5000x128 .f32) (ix2 p k) = V c main_v35 (ix2 r k) := by
  obtain ⟨e0, e1, -⟩ := region1_idx_facts t
  show V c main_v35 (((cfg1.win 0).blk t).view.emb (ix2 p k)) = V c main_v35 (ix2 r k)
  refine congrArg (V c main_v35) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight window's block at every point is the weight matrix. -/
theorem region1_weight_apply (V : (c : Dev nD) → (b : Ref sig .tc) → Buf (Elt Ideal) ((c : Thread nD τ).loc b)) (c : Dev nD)
    (t : Fin cfg1.N) (k q : Fin 128) :
    (iblk1 (F := Ideal) V c 1 t : Vec Ideal S128x128 .f32) (ix2 k q) = V c main_arg6 (ix2 k q) := by
  obtain ⟨-, -, e2, e3, -⟩ := region1_idx_facts t
  show V c main_arg6 (((cfg1.win 1).blk t).view.emb (ix2 k q)) = V c main_arg6 (ix2 k q)
  refine congrArg (V c main_arg6) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias window's block at every point is the bias row. -/
theorem region1_bias_apply (V : (c : Dev nD) → (b : Ref sig .tc) → Buf (Elt Ideal) ((c : Thread nD τ).loc b)) (c : Dev nD)
    (t : Fin cfg1.N) (q : Fin 128) :
    (iblk1 (F := Ideal) V c 2 t : Vec Ideal S1x128 .f32) (ix2 (0 : Fin 1) q) = V c main_v36 (ix2 (0 : Fin 1) q) := by
  obtain ⟨-, -, -, -, e4, e5, -⟩ := region1_idx_facts t
  show V c main_v36 (((cfg1.win 2).blk t).view.emb (ix2 (0 : Fin 1) q)) = V c main_v36 (ix2 (0 : Fin 1) q)
  refine congrArg (V c main_v36) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- The body's stored value at (p, q), when row p of the loaded rows is row r of an array X, column q of the loaded
    matrix is column q of W, and the loaded bias row agrees with B at column q, is the specification of X, W, B at
    entry (r, q). -/
theorem region1_block_value (x0 : Vec Ideal S5000x128 .f32) (x1 : Vec Ideal S128x128 .f32) (x2 : Vec Ideal S1x128 .f32)
    (X : Cert.DenseSpec.Rows.Idx → EReal) (W : Cert.DenseSpec.Wsq.Idx → EReal) (B : S1x128.Idx → EReal)
    (p : Fin 5000) (q : Fin 128) (r : Fin 100000)
    (hx : ∀ k : Fin 128, x0 (ix2 p k) = X (ix2 r k))
    (hw : ∀ k : Fin 128, x1 (ix2 k q) = W (ix2 k q))
    (hb : x2 (ix2 (0 : Fin 1) q) = B (ix2 (0 : Fin 1) q)) :
    k1_pay1 (F := Ideal) x0 x1 x2 (ix2 p q)
      = Cert.DenseSpec.reluAffine X W (fun q => B (ix2 (0 : Fin 1) q)) (ix2 r q) := by
  rw [region1_pay_apply, hb]
  show _ = max ((∑ k : Fin 128, X (ix2 r k) * W (ix2 k q)) + B (ix2 (0 : Fin 1) q)) 0
  rw [Finset.sum_congr rfl fun k _ => by rw [hx k, hw k]]

/-- WHAT POINT t WRITES BACK is block t of the specification of the arrays as the region finds them. -/
theorem region1_flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.DenseSpec.reluAffine (V c main_v35) (V c main_arg6) (fun q => V c main_v36 (ix2 (0 : Fin 1) q))) := by
  show (cfg1.win 3).cut (grid1.coords t) ((dat1 V c).after 3 t) = _
  rw [after1_3]
  unfold out1_3
  rw [View.canon_unit_zero region1_hz]
  simp only [View.ld_unit_zero (S := S5000x128) region1_hz, View.ld_unit_zero (S := S128x128) region1_hz,
    View.ld_unit_zero (S := S1x128) region1_hz]
  funext j
  obtain ⟨p, q, rfl⟩ : ∃ (p : Fin 5000) (q : Fin 128), j = ix2 p q := ⟨j 0, j 1, eq_ix2 (n0 := 5000) (n1 := 128) j⟩
  obtain ⟨-, -, -, -, -, -, e6, e7⟩ := region1_idx_facts t
  have ht : t.val < 20 := lt_of_lt_of_eq t.isLt N_1
  have hemb : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
      = Cert.DenseSpec.reluAffine (V c main_v35) (V c main_arg6) (fun q => V c main_v36 (ix2 (0 : Fin 1) q))
          (((cfg1.win 3).blk t).view.emb (ix2 p q))
  rw [hemb]
  exact region1_block_value (iblk1 V c 0 t) (iblk1 V c 1 t) (iblk1 V c 2 t) (V c main_v35) (V c main_arg6) (V c main_v36)
    p q ⟨t.val * 5000 + p.val, by omega⟩
    (fun k => region1_rows_apply V c t p k ⟨t.val * 5000 + p.val, by omega⟩ rfl)
    (fun k => region1_weight_apply V c t k q) (region1_bias_apply V c t q)

/-- An index of the output array is in point t's block iff each coordinate is in the block's range on its axis. -/
theorem region1_mem_blk (t : Fin cfg1.N) (i : S100000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v37).slice (win1_3.rect t)).set ↔ _
  rw [View.set_slice_whole, Rect.mem_set_unit]
  exact Iff.rfl

/-- Every entry of the output array is written by some point: row r by point r / 5000. -/
theorem region1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, e6, e7⟩ := region1_idx_facts t
  refine ⟨t, flush1_3 t, ?_⟩
  rw [region1_mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE OUTPUT ARRAY after the region is the specification of the input, weight and bias arrays as the region finds
    them, entry by entry: every point writes its block of it, and the blocks cover the array. -/
theorem region1_value (V : (c : Dev nD) → (b : Ref sig .tc) → Buf (Elt Ideal) ((c : Thread nD τ).loc b)) (c : Dev nD) :
    (dat1 (F := Ideal) V c).arrAt 3 cfg1.N
      = Cert.DenseSpec.reluAffine (V c main_v35) (V c main_arg6) (fun q => V c main_v36 (ix2 (0 : Fin 1) q)) :=
  (dat1 (F := Ideal) V c).arrAt_eq_of_cover 3 _ (fun t _ => region1_flushed_eq V c t) region1_cover

end Cert.KernelIdeal.DenseValue

end
-- ==== Proof.DenseRegion2.lean ====
import proofs.«127578_j4595615007149_1_alg».proof.Proof.Gen.KernelIdeal.Frame
import proofs.«127578_j4595615007149_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DenseValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem region2_zero_off : (![0, 0] : Fin 2 → Nat) = fun _ => 0 := funext fun a => by fin_cases a <;> rfl

/-! ## The block product's operand indices, axis by axis -/

/-- The left operand's row is the output's row. -/
theorem region2_lhs_0 (i : S400x64.Idx) (κ : dot_S400x128_S128x64_S400x64_1_0_0_1_n_n.contr.Idx) :
    (dot_S400x128_S128x64_S400x64_1_0_0_1_n_n.lhsIdx i κ 0).val = (i 0).val := by
  unfold DotDims.lhsIdx
  rw [dif_neg (show ¬(0 : Fin S400x128.rank) ∈ dot_S400x128_S128x64_S400x64_1_0_0_1_n_n.lhsBatch by decide),
    dif_pos (show (0 : Fin S400x128.rank) ∈ dot_S400x128_S128x64_S400x64_1_0_0_1_n_n.lhsNonContracting by decide)]
  rfl

/-- The left operand's column is the summation index. -/
theorem region2_lhs_1 (i : S400x64.Idx) (κ : dot_S400x128_S128x64_S400x64_1_0_0_1_n_n.contr.Idx) :
    (dot_S400x128_S128x64_S400x64_1_0_0_1_n_n.lhsIdx i κ 1).val = (κ ⟨0, by decide⟩).val :=
  dot_S400x128_S128x64_S400x64_1_0_0_1_n_n.lhsIdx_val_of_single rfl i κ

/-- The right operand's row is the summation index. -/
theorem region2_rhs_0 (i : S400x64.Idx) (κ : dot_S400x128_S128x64_S400x64_1_0_0_1_n_n.contr.Idx) :
    (dot_S400x128_S128x64_S400x64_1_0_0_1_n_n.rhsIdx i κ 0).val = (κ ⟨0, by decide⟩).val :=
  dot_S400x128_S128x64_S400x64_1_0_0_1_n_n.rhsIdx_val_of_single rfl i κ

/-- The right operand's column is the output's column. -/
theorem region2_rhs_1 (i : S400x64.Idx) (κ : dot_S400x128_S128x64_S400x64_1_0_0_1_n_n.contr.Idx) :
    (dot_S400x128_S128x64_S400x64_1_0_0_1_n_n.rhsIdx i κ 1).val = (i 1).val := by
  unfold DotDims.rhsIdx
  rw [dif_neg (show ¬(1 : Fin S128x64.rank) ∈ dot_S400x128_S128x64_S400x64_1_0_0_1_n_n.rhsBatch by decide),
    dif_pos (show (1 : Fin S128x64.rank) ∈ dot_S400x128_S128x64_S400x64_1_0_0_1_n_n.rhsNonContracting by decide)]
  rfl

/-- The block product read at row `p`, column `q`: the sum over the 128 shared coordinates. -/
theorem region2_matmul_at (a : FVec Ideal S400x128 .bf16) (b : FVec Ideal S128x64 .bf16) (p : Fin 400) (q : Fin 64) :
    matmul dot_S400x128_S128x64_S400x64_1_0_0_1_n_n none a b (constant (F := Ideal) S400x64 .f32 0x00000000#32) (ix2 p q)
      = ∑ k : Fin 128, a (ix2 p k) * b (ix2 k q) := by
  show FloatOps.matmul _ none a b _ (ix2 p q) = _
  rw [Ideal.matmul_constant_zero_apply,
    ← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p q)
      ((contrEquiv1 dot_S400x128_S128x64_S400x64_1_0_0_1_n_n 128 rfl rfl).symm k) = ix2 p k :=
    funext fun ax => Fin.ext (by
      match ax with
      | ⟨0, _⟩ => exact region2_lhs_0 _ _
      | ⟨1, _⟩ => exact (region2_lhs_1 _ _).trans hk)
  have er : dot_S400x128_S128x64_S400x64_1_0_0_1_n_n.rhsIdx (ix2 p q)
      ((contrEquiv1 dot_S400x128_S128x64_S400x64_1_0_0_1_n_n 128 rfl rfl).symm k) = ix2 k q :=
    funext fun ax => Fin.ext (by
      match ax with
      | ⟨0, _⟩ => exact (region2_rhs_0 _ _).trans hk
      | ⟨1, _⟩ => exact region2_rhs_1 _ _)
  rw [el, er]

/-- The body's stored value at row `p`, column `q` of its block: the row of the first operand against the column of the
    second, plus the column's entry of the one-row third. The changes of float format are the identity on extended reals. -/
theorem region2_payload_at (x0 : Vec Ideal S400x128 .f32) (x1 : Vec Ideal S128x64 .f32) (x2 : Vec Ideal S1x64 .f32)
    (p : Fin 400) (q : Fin 64) :
    k2_pay1 x0 x1 x2 (ix2 p q) = (∑ k : Fin 128, x0 (ix2 p k) * x1 (ix2 k q)) + x2 (ix2 (0 : Fin 1) q) := by
  unfold k2_pay1
  simp only [shapeCast_self]
  refine (addf_apply _ _ (ix2 p q)).trans ?_
  rw [region2_matmul_at, broadcastTo_1b_ab_apply]
  rfl

/-! ## The windows' blocks, read where the arrays hold them -/

/-- The index maps over the five points: the row windows sit at block row `t`, column block 0; the weight and the bias
    windows are the whole arrays at every point. -/
theorem region2_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The three arrays the region reads, as functions on their literal index sets. -/
abbrev region2_xarr (c : Dev nD) : S2000x128.Idx → EReal := V c main_v64
abbrev region2_warr (c : Dev nD) : S128x64.Idx → EReal := V c main_arg8
abbrev region2_barr (c : Dev nD) : S1x64.Idx → EReal := V c main_v65

/-- The three blocks the body loads at point `t`. -/
abbrev region2_xblk (c : Dev nD) (t : Fin cfg2.N) : Vec Ideal S400x128 .f32 := iblk2 V c 0 t
abbrev region2_wblk (c : Dev nD) (t : Fin cfg2.N) : Vec Ideal S128x64 .f32 := iblk2 V c 1 t
abbrev region2_bblk (c : Dev nD) (t : Fin cfg2.N) : Vec Ideal S1x64 .f32 := iblk2 V c 2 t

/-- Row `p` of the input block at point `t` is row `400 t + p` of the input array. -/
theorem region2_in_block_at (c : Dev nD) (t : Fin cfg2.N) (p : Fin 400) (k : Fin 128) (r : Fin 2000)
    (hr : r.val = 400 * t.val + p.val) :
    region2_xblk V c t (ix2 p k) = region2_xarr V c (ix2 r k) := by
  obtain ⟨e0, e1, -⟩ := region2_index_facts t
  show iblk2 V c 0 t _ = _
  unfold iblk2
  rw [View.read_apply]
  show V c main_v64 _ = V c main_v64 _
  congr 1
  funext a
  apply Fin.ext
  match a with
  | ⟨0, _⟩ => show win2_0.index t (0 : Fin 2) * 400 + 1 * p.val = r.val; rw [e0, hr]; omega
  | ⟨1, _⟩ => show win2_0.index t (1 : Fin 2) * 128 + 1 * k.val = k.val; rw [e1]; omega

/-- The weight block at any point is the weight matrix. -/
theorem region2_w_block_at (c : Dev nD) (t : Fin cfg2.N) (k : Fin 128) (q : Fin 64) :
    region2_wblk V c t (ix2 k q) = region2_warr V c (ix2 k q) := by
  obtain ⟨-, -, e0, e1, -⟩ := region2_index_facts t
  show iblk2 V c 1 t _ = _
  unfold iblk2
  rw [View.read_apply]
  show V c main_arg8 _ = V c main_arg8 _
  congr 1
  funext a
  apply Fin.ext
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- The bias block at any point is the one-row bias array. -/
theorem region2_b_block_at (c : Dev nD) (t : Fin cfg2.N) (q : Fin 64) :
    region2_bblk V c t (ix2 (0 : Fin 1) q) = region2_barr V c (ix2 (0 : Fin 1) q) := by
  obtain ⟨-, -, -, -, e0, e1, -⟩ := region2_index_facts t
  show iblk2 V c 2 t _ = _
  unfold iblk2
  rw [View.read_apply]
  show V c main_v65 _ = V c main_v65 _
  congr 1
  funext a
  apply Fin.ext
  match a with
  | ⟨0, _⟩ => show win2_2.index t (0 : Fin 2) * 1 + 1 * 0 = 0; omega
  | ⟨1, _⟩ => show win2_2.index t (1 : Fin 2) * 64 + 1 * q.val = q.val; rw [e1]; omega

/-! ## What a point writes back, and the whole array -/

/-- The dense stage's specification at the arrays the region finds. -/
abbrev region2_spec (c : Dev nD) : Cert.DenseSpec.Out.Idx → EReal :=
  Cert.DenseSpec.affine (V c main_v64) (V c main_arg8) (fun q => V c main_v65 (ix2 (0 : Fin 1) q))

/-- The specification at row `r`, column `q`, spelt out. -/
theorem region2_spec_at (c : Dev nD) (r : Fin 2000) (q : Fin 64) :
    region2_spec V c (ix2 r q)
      = (∑ k : Fin 128, region2_xarr V c (ix2 r k) * region2_warr V c (ix2 k q)) + region2_barr V c (ix2 (0 : Fin 1) q) := rfl

/-- The stored value at row `p`, column `q` of point `t`'s block is the specification at row `400 t + p`. -/
theorem region2_block_value (c : Dev nD) (t : Fin cfg2.N) (p : Fin 400) (q : Fin 64) (r : Fin 2000)
    (hr : r.val = 400 * t.val + p.val) :
    k2_pay1 (region2_xblk V c t) (region2_wblk V c t) (region2_bblk V c t) (ix2 p q) = region2_spec V c (ix2 r q) := by
  refine (region2_payload_at (region2_xblk V c t) (region2_wblk V c t) (region2_bblk V c t) p q).trans ?_
  rw [region2_spec_at V c r q, region2_b_block_at V c t q]
  refine congrArg (· + region2_barr V c (ix2 (0 : Fin 1) q)) (Finset.sum_congr rfl fun k _ => ?_)
  rw [region2_in_block_at V c t p k r hr, region2_w_block_at V c t k q]

/-- WHAT POINT `t` WRITES BACK is block `t` of the specification. -/
theorem region2_flushed (c : Dev nD) (t : Fin cfg2.N) :
    (dat2 (F := Ideal) V c).flushed 3 t = ((cfg2.win 3).blk t).view.read (Elt Ideal) (region2_spec V c) := by
  show (cfg2.win 3).cut (grid2.coords t) ((dat2 V c).after 3 t) = _
  rw [after2_3]
  unfold out2_3
  rw [View.canon_unit_zero region2_zero_off]
  simp only [View.ld_unit_zero (S := S400x128) region2_zero_off, View.ld_unit_zero (S := S128x64) region2_zero_off,
    View.ld_unit_zero (S := S1x64) region2_zero_off]
  obtain ⟨-, -, -, -, -, -, e0, e1⟩ := region2_index_facts t
  have hN : cfg2.N = 5 := N_2
  have ht : t.val < 5 := hN ▸ t.isLt
  funext j
  have hp : (j 0).val < 400 := (j 0).isLt
  have hq : (j 1).val < 64 := (j 1).isLt
  have hx : (cfg2.win 3).xinj (grid2.coords t) j = ix2 (⟨(j 0).val, hp⟩ : Fin 400) (⟨(j 1).val, hq⟩ : Fin 64) :=
    funext fun a => by match a with | ⟨0, _⟩ => rfl | ⟨1, _⟩ => rfl
  have hemb : ((cfg2.win 3).blk t).view.emb j
      = ix2 (⟨400 * t.val + (j 0).val, by omega⟩ : Fin 2000) (⟨(j 1).val, hq⟩ : Fin 64) := by
    funext a
    apply Fin.ext
    match a with
    | ⟨0, _⟩ => show win2_3.index t (0 : Fin 2) * 400 + 1 * (j 0).val = 400 * t.val + (j 0).val; rw [e0]; omega
    | ⟨1, _⟩ => show win2_3.index t (1 : Fin 2) * 64 + 1 * (j 1).val = (j 1).val; rw [e1]; omega
  rw [View.read_apply, hemb]
  show k2_pay1 (region2_xblk V c t) (region2_wblk V c t) (region2_bblk V c t) ((cfg2.win 3).xinj (grid2.coords t) j) = _
  rw [hx]
  exact region2_block_value V c t ⟨(j 0).val, hp⟩ ⟨(j 1).val, hq⟩ _ rfl

/-- An index of the output array is in point `t`'s block iff each coordinate is in the block's range on its axis. -/
theorem region2_mem_blk (t : Fin cfg2.N) (i : S2000x64.Idx) :
    i ∈ ((cfg2.win 3).blk t).view.set
      ↔ ∀ a : Fin 2, win2_3.index t a * S400x64.size a ≤ (i a).val ∧ (i a).val < win2_3.index t a * S400x64.size a + S400x64.size a := by
  show i ∈ ((View.whole main_v66).slice (win2_3.rect t)).set ↔ _
  rw [View.set_slice_whole, Rect.mem_set_unit]
  exact Iff.rfl

/-- Row `r` of the output lies in the block of point `r / 400`: the five blocks of 400 rows fill the 2000 rows. -/
theorem region2_cover (i : S2000x64.Idx) :
    ∃ t : Fin cfg2.N, (cfg2.win 3).flush t = true ∧ i ∈ ((cfg2.win 3).blk t).view.set := by
  have hN : cfg2.N = 5 := N_2
  have hi0 : (i 0).val < 2000 := (i 0).isLt
  have hi1 : (i 1).val < 64 := (i 1).isLt
  let t : Fin cfg2.N := ⟨(i 0).val / 400, by rw [hN]; omega⟩
  obtain ⟨-, -, -, -, -, -, e0, e1⟩ := region2_index_facts t
  have ht : t.val = (i 0).val / 400 := rfl
  refine ⟨t, flush2_3 t, ?_⟩
  rw [region2_mem_blk]
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 64 ≤ (i 1).val ∧ (i 1).val < win2_3.index t (1 : Fin 2) * 64 + 64
    rw [e1]; omega

/-- THE OUTPUT ARRAY after the region is the specification of the arrays the region finds: every point writes back its
    block of it, and the five blocks of 400 rows fill the 2000 rows. -/
theorem region2_value (V : (c : Dev nD) → (b : Ref sig .tc) → Buf (Elt Ideal) ((c : Thread nD τ).loc b)) (c : Dev nD) :
    (dat2 (F := Ideal) V c).arrAt 3 cfg2.N
      = Cert.DenseSpec.affine (V c main_v64) (V c main_arg8) (fun q => V c main_v65 (ix2 (0 : Fin 1) q)) :=
  (dat2 (F := Ideal) V c).arrAt_eq_of_cover 3 (region2_spec V c) (fun t _ => region2_flushed V c t) region2_cover

end Cert.KernelIdeal.DenseValue

end
-- ==== Proof.Bridge.lean ====
/-
  From the launch to the result: the two programs leave equal values in every buffer a dense stage reads, and so in
  the result.

  The argument goes down the program once. Launched from memories that agree on the ten arguments:
  the normalized neighbour sum of the input features is the same array in both programs (a shared host stretch);
  so the first layer's dense stage, which is one function of that array, the weights and the bias in both programs,
  leaves the same output; the second layer repeats this on that output; the pooled means are then the same (the last
  shared stretch), and the output stage, again one function in both programs, leaves the same result.
  Between these steps the argument arrays are read back unchanged: no operation and no pallas_call writes one.
-/
import proofs.«127578_j4595615007149_1_alg».proof.Proof.BridgeStretches
import proofs.«127578_j4595615007149_1_alg».proof.Proof.BridgeStretchC
import proofs.«127578_j4595615007149_1_alg».proof.Proof.DenseRegion0
import proofs.«127578_j4595615007149_1_alg».proof.Proof.DenseRegion1
import proofs.«127578_j4595615007149_1_alg».proof.Proof.DenseRegion2

noncomputable section

namespace Cert.Bridge

open Idealize.ShloMosaic Idealize.ShloMosaic.TcCoe Idealize.ShloMosaic.StableHlo Idealize.ShloMosaic.ValueIdx Idealize.SL.Sem

/-! ## Buffers the reference's stretches do not write -/

theorem ref_keeps1_arg4 (V : RV) : (after (Cert.ReferenceIdeal.Hand.stretchA (F := Ideal)) V) (Proc.devRef .tc Cert.ReferenceIdeal.main_arg4) = V (Proc.devRef .tc Cert.ReferenceIdeal.main_arg4) := by
  keeps

theorem ref_keeps1_arg5 (V : RV) : (after (Cert.ReferenceIdeal.Hand.stretchA (F := Ideal)) V) (Proc.devRef .tc Cert.ReferenceIdeal.main_arg5) = V (Proc.devRef .tc Cert.ReferenceIdeal.main_arg5) := by
  keeps

theorem ref_keeps1_arg1 (V : RV) : (after (Cert.ReferenceIdeal.Hand.stretchA (F := Ideal)) V) (Proc.devRef .tc Cert.ReferenceIdeal.main_arg1) = V (Proc.devRef .tc Cert.ReferenceIdeal.main_arg1) := by
  keeps

theorem ref_keeps2_arg1 (V : RV) : (after (Cert.ReferenceIdeal.Hand.denseA (F := Ideal)) (after (Cert.ReferenceIdeal.Hand.stretchA (F := Ideal)) V)) (Proc.devRef .tc Cert.ReferenceIdeal.main_arg1) = V (Proc.devRef .tc Cert.ReferenceIdeal.main_arg1) :=
  (show (after (Cert.ReferenceIdeal.Hand.denseA (F := Ideal)) (after (Cert.ReferenceIdeal.Hand.stretchA (F := Ideal)) V)) (Proc.devRef .tc Cert.ReferenceIdeal.main_arg1) = (after (Cert.ReferenceIdeal.Hand.stretchA (F := Ideal)) V) (Proc.devRef .tc Cert.ReferenceIdeal.main_arg1) by keeps).trans (ref_keeps1_arg1 V)

theorem ref_keeps1_arg2 (V : RV) : (after (Cert.ReferenceIdeal.Hand.stretchA (F := Ideal)) V) (Proc.devRef .tc Cert.ReferenceIdeal.main_arg2) = V (Proc.devRef .tc Cert.ReferenceIdeal.main_arg2) := by
  keeps

theorem ref_keeps2_arg2 (V : RV) : (after (Cert.ReferenceIdeal.Hand.denseA (F := Ideal)) (after (Cert.ReferenceIdeal.Hand.stretchA (F := Ideal)) V)) (Proc.devRef .tc Cert.ReferenceIdeal.main_arg2) = V (Proc.devRef .tc Cert.ReferenceIdeal.main_arg2) :=
  (show (after (Cert.ReferenceIdeal.Hand.denseA (F := Ideal)) (after (Cert.ReferenceIdeal.Hand.stretchA (F := Ideal)) V)) (Proc.devRef .tc Cert.ReferenceIdeal.main_arg2) = (after (Cert.ReferenceIdeal.Hand.stretchA (F := Ideal)) V) (Proc.devRef .tc Cert.ReferenceIdeal.main_arg2) by keeps).trans (ref_keeps1_arg2 V)

theorem ref_keeps1_arg6 (V : RV) : (after (Cert.ReferenceIdeal.Hand.stretchA (F := Ideal)) V) (Proc.devRef .tc Cert.ReferenceIdeal.main_arg6) = V (Proc.devRef .tc Cert.ReferenceIdeal.main_arg6) := by
  keeps

theorem ref_keeps2_arg6 (V : RV) : (after (Cert.ReferenceIdeal.Hand.denseA (F := Ideal)) (after (Cert.ReferenceIdeal.Hand.stretchA (F := Ideal)) V)) (Proc.devRef .tc Cert.ReferenceIdeal.main_arg6) = V (Proc.devRef .tc Cert.ReferenceIdeal.main_arg6) :=
  (show (after (Cert.ReferenceIdeal.Hand.denseA (F := Ideal)) (after (Cert.ReferenceIdeal.Hand.stretchA (F := Ideal)) V)) (Proc.devRef .tc Cert.ReferenceIdeal.main_arg6) = (after (Cert.ReferenceIdeal.Hand.stretchA (F := Ideal)) V) (Proc.devRef .tc Cert.ReferenceIdeal.main_arg6) by keeps).trans (ref_keeps1_arg6 V)

theorem ref_keeps3_arg6 (V : RV) : (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg6) = V (Proc.devRef .tc Cert.ReferenceIdeal.main_arg6) :=
  (show (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg6) = (after (Cert.ReferenceIdeal.Hand.denseA (F := Ideal)) (after (Cert.ReferenceIdeal.Hand.stretchA (F := Ideal)) V)) (Proc.devRef .tc Cert.ReferenceIdeal.main_arg6) by keeps).trans (ref_keeps2_arg6 V)

theorem ref_keeps1_arg7 (V : RV) : (after (Cert.ReferenceIdeal.Hand.stretchA (F := Ideal)) V) (Proc.devRef .tc Cert.ReferenceIdeal.main_arg7) = V (Proc.devRef .tc Cert.ReferenceIdeal.main_arg7) := by
  keeps

theorem ref_keeps2_arg7 (V : RV) : (after (Cert.ReferenceIdeal.Hand.denseA (F := Ideal)) (after (Cert.ReferenceIdeal.Hand.stretchA (F := Ideal)) V)) (Proc.devRef .tc Cert.ReferenceIdeal.main_arg7) = V (Proc.devRef .tc Cert.ReferenceIdeal.main_arg7) :=
  (show (after (Cert.ReferenceIdeal.Hand.denseA (F := Ideal)) (after (Cert.ReferenceIdeal.Hand.stretchA (F := Ideal)) V)) (Proc.devRef .tc Cert.ReferenceIdeal.main_arg7) = (after (Cert.ReferenceIdeal.Hand.stretchA (F := Ideal)) V) (Proc.devRef .tc Cert.ReferenceIdeal.main_arg7) by keeps).trans (ref_keeps1_arg7 V)

theorem ref_keeps3_arg7 (V : RV) : (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg7) = V (Proc.devRef .tc Cert.ReferenceIdeal.main_arg7) :=
  (show (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg7) = (after (Cert.ReferenceIdeal.Hand.denseA (F := Ideal)) (after (Cert.ReferenceIdeal.Hand.stretchA (F := Ideal)) V)) (Proc.devRef .tc Cert.ReferenceIdeal.main_arg7) by keeps).trans (ref_keeps2_arg7 V)

theorem ref_keeps1_arg3 (V : RV) : (after (Cert.ReferenceIdeal.Hand.stretchA (F := Ideal)) V) (Proc.devRef .tc Cert.ReferenceIdeal.main_arg3) = V (Proc.devRef .tc Cert.ReferenceIdeal.main_arg3) := by
  keeps

theorem ref_keeps2_arg3 (V : RV) : (after (Cert.ReferenceIdeal.Hand.denseA (F := Ideal)) (after (Cert.ReferenceIdeal.Hand.stretchA (F := Ideal)) V)) (Proc.devRef .tc Cert.ReferenceIdeal.main_arg3) = V (Proc.devRef .tc Cert.ReferenceIdeal.main_arg3) :=
  (show (after (Cert.ReferenceIdeal.Hand.denseA (F := Ideal)) (after (Cert.ReferenceIdeal.Hand.stretchA (F := Ideal)) V)) (Proc.devRef .tc Cert.ReferenceIdeal.main_arg3) = (after (Cert.ReferenceIdeal.Hand.stretchA (F := Ideal)) V) (Proc.devRef .tc Cert.ReferenceIdeal.main_arg3) by keeps).trans (ref_keeps1_arg3 V)

theorem ref_keeps3_arg3 (V : RV) : (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg3) = V (Proc.devRef .tc Cert.ReferenceIdeal.main_arg3) :=
  (show (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg3) = (after (Cert.ReferenceIdeal.Hand.denseA (F := Ideal)) (after (Cert.ReferenceIdeal.Hand.stretchA (F := Ideal)) V)) (Proc.devRef .tc Cert.ReferenceIdeal.main_arg3) by keeps).trans (ref_keeps2_arg3 V)

theorem ref_keeps4_arg3 (V : RV) : (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg3) = V (Proc.devRef .tc Cert.ReferenceIdeal.main_arg3) :=
  (show (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg3) = (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg3) by keeps).trans (ref_keeps3_arg3 V)

theorem ref_keeps1_arg8 (V : RV) : (after (Cert.ReferenceIdeal.Hand.stretchA (F := Ideal)) V) (Proc.devRef .tc Cert.ReferenceIdeal.main_arg8) = V (Proc.devRef .tc Cert.ReferenceIdeal.main_arg8) := by
  keeps

theorem ref_keeps2_arg8 (V : RV) : (after (Cert.ReferenceIdeal.Hand.denseA (F := Ideal)) (after (Cert.ReferenceIdeal.Hand.stretchA (F := Ideal)) V)) (Proc.devRef .tc Cert.ReferenceIdeal.main_arg8) = V (Proc.devRef .tc Cert.ReferenceIdeal.main_arg8) :=
  (show (after (Cert.ReferenceIdeal.Hand.denseA (F := Ideal)) (after (Cert.ReferenceIdeal.Hand.stretchA (F := Ideal)) V)) (Proc.devRef .tc Cert.ReferenceIdeal.main_arg8) = (after (Cert.ReferenceIdeal.Hand.stretchA (F := Ideal)) V) (Proc.devRef .tc Cert.ReferenceIdeal.main_arg8) by keeps).trans (ref_keeps1_arg8 V)

theorem ref_keeps3_arg8 (V : RV) : (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg8) = V (Proc.devRef .tc Cert.ReferenceIdeal.main_arg8) :=
  (show (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg8) = (after (Cert.ReferenceIdeal.Hand.denseA (F := Ideal)) (after (Cert.ReferenceIdeal.Hand.stretchA (F := Ideal)) V)) (Proc.devRef .tc Cert.ReferenceIdeal.main_arg8) by keeps).trans (ref_keeps2_arg8 V)

theorem ref_keeps4_arg8 (V : RV) : (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg8) = V (Proc.devRef .tc Cert.ReferenceIdeal.main_arg8) :=
  (show (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg8) = (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg8) by keeps).trans (ref_keeps3_arg8 V)

theorem ref_keeps5_arg8 (V : RV) : (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V))))) (Proc.devRef .tc Cert.ReferenceIdeal.main_arg8) = V (Proc.devRef .tc Cert.ReferenceIdeal.main_arg8) :=
  (show (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V))))) (Proc.devRef .tc Cert.ReferenceIdeal.main_arg8) = (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg8) by keeps).trans (ref_keeps4_arg8 V)

theorem ref_keeps1_arg9 (V : RV) : (after (Cert.ReferenceIdeal.Hand.stretchA (F := Ideal)) V) (Proc.devRef .tc Cert.ReferenceIdeal.main_arg9) = V (Proc.devRef .tc Cert.ReferenceIdeal.main_arg9) := by
  keeps

theorem ref_keeps2_arg9 (V : RV) : (after (Cert.ReferenceIdeal.Hand.denseA (F := Ideal)) (after (Cert.ReferenceIdeal.Hand.stretchA (F := Ideal)) V)) (Proc.devRef .tc Cert.ReferenceIdeal.main_arg9) = V (Proc.devRef .tc Cert.ReferenceIdeal.main_arg9) :=
  (show (after (Cert.ReferenceIdeal.Hand.denseA (F := Ideal)) (after (Cert.ReferenceIdeal.Hand.stretchA (F := Ideal)) V)) (Proc.devRef .tc Cert.ReferenceIdeal.main_arg9) = (after (Cert.ReferenceIdeal.Hand.stretchA (F := Ideal)) V) (Proc.devRef .tc Cert.ReferenceIdeal.main_arg9) by keeps).trans (ref_keeps1_arg9 V)

theorem ref_keeps3_arg9 (V : RV) : (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg9) = V (Proc.devRef .tc Cert.ReferenceIdeal.main_arg9) :=
  (show (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg9) = (after (Cert.ReferenceIdeal.Hand.denseA (F := Ideal)) (after (Cert.ReferenceIdeal.Hand.stretchA (F := Ideal)) V)) (Proc.devRef .tc Cert.ReferenceIdeal.main_arg9) by keeps).trans (ref_keeps2_arg9 V)

theorem ref_keeps4_arg9 (V : RV) : (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg9) = V (Proc.devRef .tc Cert.ReferenceIdeal.main_arg9) :=
  (show (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg9) = (after (Cert.ReferenceIdeal.Hand.stretchB (F := Ideal)) (after (Cert.ReferenceIdeal.Hand.denseA (F := Ideal)) (after (Cert.ReferenceIdeal.Hand.stretchA (F := Ideal)) V))) (Proc.devRef .tc Cert.ReferenceIdeal.main_arg9) by keeps).trans (ref_keeps3_arg9 V)

theorem ref_keeps5_arg9 (V : RV) : (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V))))) (Proc.devRef .tc Cert.ReferenceIdeal.main_arg9) = V (Proc.devRef .tc Cert.ReferenceIdeal.main_arg9) :=
  (show (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V))))) (Proc.devRef .tc Cert.ReferenceIdeal.main_arg9) = (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))) (Proc.devRef .tc Cert.ReferenceIdeal.main_arg9) by keeps).trans (ref_keeps4_arg9 V)

/-- The reference's whole line writes no argument. -/
theorem ref_ops_arg0 (V : RV) : after (Cert.ReferenceIdeal.Hand.ops (F := Ideal)) V (Proc.devRef .tc Cert.ReferenceIdeal.main_arg0) = V (Proc.devRef .tc Cert.ReferenceIdeal.main_arg0) := by
  keeps
theorem ref_ops_arg1 (V : RV) : after (Cert.ReferenceIdeal.Hand.ops (F := Ideal)) V (Proc.devRef .tc Cert.ReferenceIdeal.main_arg1) = V (Proc.devRef .tc Cert.ReferenceIdeal.main_arg1) := by
  keeps
theorem ref_ops_arg2 (V : RV) : after (Cert.ReferenceIdeal.Hand.ops (F := Ideal)) V (Proc.devRef .tc Cert.ReferenceIdeal.main_arg2) = V (Proc.devRef .tc Cert.ReferenceIdeal.main_arg2) := by
  keeps
theorem ref_ops_arg3 (V : RV) : after (Cert.ReferenceIdeal.Hand.ops (F := Ideal)) V (Proc.devRef .tc Cert.ReferenceIdeal.main_arg3) = V (Proc.devRef .tc Cert.ReferenceIdeal.main_arg3) := by
  keeps
theorem ref_ops_arg4 (V : RV) : after (Cert.ReferenceIdeal.Hand.ops (F := Ideal)) V (Proc.devRef .tc Cert.ReferenceIdeal.main_arg4) = V (Proc.devRef .tc Cert.ReferenceIdeal.main_arg4) := by
  keeps
theorem ref_ops_arg5 (V : RV) : after (Cert.ReferenceIdeal.Hand.ops (F := Ideal)) V (Proc.devRef .tc Cert.ReferenceIdeal.main_arg5) = V (Proc.devRef .tc Cert.ReferenceIdeal.main_arg5) := by
  keeps
theorem ref_ops_arg6 (V : RV) : after (Cert.ReferenceIdeal.Hand.ops (F := Ideal)) V (Proc.devRef .tc Cert.ReferenceIdeal.main_arg6) = V (Proc.devRef .tc Cert.ReferenceIdeal.main_arg6) := by
  keeps
theorem ref_ops_arg7 (V : RV) : after (Cert.ReferenceIdeal.Hand.ops (F := Ideal)) V (Proc.devRef .tc Cert.ReferenceIdeal.main_arg7) = V (Proc.devRef .tc Cert.ReferenceIdeal.main_arg7) := by
  keeps
theorem ref_ops_arg8 (V : RV) : after (Cert.ReferenceIdeal.Hand.ops (F := Ideal)) V (Proc.devRef .tc Cert.ReferenceIdeal.main_arg8) = V (Proc.devRef .tc Cert.ReferenceIdeal.main_arg8) := by
  keeps
theorem ref_ops_arg9 (V : RV) : after (Cert.ReferenceIdeal.Hand.ops (F := Ideal)) V (Proc.devRef .tc Cert.ReferenceIdeal.main_arg9) = V (Proc.devRef .tc Cert.ReferenceIdeal.main_arg9) := by
  keeps

/-- The reference's whole line is its six segments run in order. -/
theorem ref_ops_run (V : RV) : after (Cert.ReferenceIdeal.Hand.ops (F := Ideal)) V = (after (Cert.ReferenceIdeal.Hand.denseC (F := Ideal)) (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) V)))))) := by
  rw [Cert.ReferenceIdeal.Hand.ops_eq]
  simp only [after_append]

/-! ## The same for the kernel program, between the launch and each pallas_call -/

section Kernel

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem ker_keeps1_arg4 : Cert.KernelIdeal.Gen.W1 m ρ c (Proc.devRef .tc Cert.KernelIdeal.main_arg4) = Cert.KernelIdeal.Gen.W0 m ρ c (Proc.devRef .tc Cert.KernelIdeal.main_arg4) := by
  keeps

theorem ker_keeps1_arg1 : Cert.KernelIdeal.Gen.W1 m ρ c (Proc.devRef .tc Cert.KernelIdeal.main_arg1) = Cert.KernelIdeal.Gen.W0 m ρ c (Proc.devRef .tc Cert.KernelIdeal.main_arg1) := by
  keeps
theorem ker_keeps2_arg1 : Cert.KernelIdeal.Gen.W2 m ρ c (Proc.devRef .tc Cert.KernelIdeal.main_arg1) = Cert.KernelIdeal.Gen.W0 m ρ c (Proc.devRef .tc Cert.KernelIdeal.main_arg1) :=
  (Cert.KernelIdeal.Gen.W2_of_ne m ρ c Cert.KernelIdeal.main_arg1 (by decide)).trans (ker_keeps1_arg1 m ρ c)

theorem ker_keeps1_arg2 : Cert.KernelIdeal.Gen.W1 m ρ c (Proc.devRef .tc Cert.KernelIdeal.main_arg2) = Cert.KernelIdeal.Gen.W0 m ρ c (Proc.devRef .tc Cert.KernelIdeal.main_arg2) := by
  keeps
theorem ker_keeps2_arg2 : Cert.KernelIdeal.Gen.W2 m ρ c (Proc.devRef .tc Cert.KernelIdeal.main_arg2) = Cert.KernelIdeal.Gen.W0 m ρ c (Proc.devRef .tc Cert.KernelIdeal.main_arg2) :=
  (Cert.KernelIdeal.Gen.W2_of_ne m ρ c Cert.KernelIdeal.main_arg2 (by decide)).trans (ker_keeps1_arg2 m ρ c)

theorem ker_keeps1_arg7 : Cert.KernelIdeal.Gen.W1 m ρ c (Proc.devRef .tc Cert.KernelIdeal.main_arg7) = Cert.KernelIdeal.Gen.W0 m ρ c (Proc.devRef .tc Cert.KernelIdeal.main_arg7) := by
  keeps
theorem ker_keeps2_arg7 : Cert.KernelIdeal.Gen.W2 m ρ c (Proc.devRef .tc Cert.KernelIdeal.main_arg7) = Cert.KernelIdeal.Gen.W0 m ρ c (Proc.devRef .tc Cert.KernelIdeal.main_arg7) :=
  (Cert.KernelIdeal.Gen.W2_of_ne m ρ c Cert.KernelIdeal.main_arg7 (by decide)).trans (ker_keeps1_arg7 m ρ c)

theorem ker_keeps1_arg6 : Cert.KernelIdeal.Gen.W1 m ρ c (Proc.devRef .tc Cert.KernelIdeal.main_arg6) = Cert.KernelIdeal.Gen.W0 m ρ c (Proc.devRef .tc Cert.KernelIdeal.main_arg6) := by
  keeps
theorem ker_keeps2_arg6 : Cert.KernelIdeal.Gen.W2 m ρ c (Proc.devRef .tc Cert.KernelIdeal.main_arg6) = Cert.KernelIdeal.Gen.W0 m ρ c (Proc.devRef .tc Cert.KernelIdeal.main_arg6) :=
  (Cert.KernelIdeal.Gen.W2_of_ne m ρ c Cert.KernelIdeal.main_arg6 (by decide)).trans (ker_keeps1_arg6 m ρ c)
theorem ker_keeps3_arg6 : Cert.KernelIdeal.Gen.W3 m ρ c (Proc.devRef .tc Cert.KernelIdeal.main_arg6) = Cert.KernelIdeal.Gen.W0 m ρ c (Proc.devRef .tc Cert.KernelIdeal.main_arg6) :=
  (show Cert.KernelIdeal.Gen.W3 m ρ c (Proc.devRef .tc Cert.KernelIdeal.main_arg6) = Cert.KernelIdeal.Gen.W2 m ρ c (Proc.devRef .tc Cert.KernelIdeal.main_arg6) by keeps).trans (ker_keeps2_arg6 m ρ c)

theorem ker_keeps1_arg3 : Cert.KernelIdeal.Gen.W1 m ρ c (Proc.devRef .tc Cert.KernelIdeal.main_arg3) = Cert.KernelIdeal.Gen.W0 m ρ c (Proc.devRef .tc Cert.KernelIdeal.main_arg3) := by
  keeps
theorem ker_keeps2_arg3 : Cert.KernelIdeal.Gen.W2 m ρ c (Proc.devRef .tc Cert.KernelIdeal.main_arg3) = Cert.KernelIdeal.Gen.W0 m ρ c (Proc.devRef .tc Cert.KernelIdeal.main_arg3) :=
  (Cert.KernelIdeal.Gen.W2_of_ne m ρ c Cert.KernelIdeal.main_arg3 (by decide)).trans (ker_keeps1_arg3 m ρ c)
theorem ker_keeps3_arg3 : Cert.KernelIdeal.Gen.W3 m ρ c (Proc.devRef .tc Cert.KernelIdeal.main_arg3) = Cert.KernelIdeal.Gen.W0 m ρ c (Proc.devRef .tc Cert.KernelIdeal.main_arg3) :=
  (show Cert.KernelIdeal.Gen.W3 m ρ c (Proc.devRef .tc Cert.KernelIdeal.main_arg3) = Cert.KernelIdeal.Gen.W2 m ρ c (Proc.devRef .tc Cert.KernelIdeal.main_arg3) by keeps).trans (ker_keeps2_arg3 m ρ c)
theorem ker_keeps4_arg3 : Cert.KernelIdeal.Gen.W4 m ρ c (Proc.devRef .tc Cert.KernelIdeal.main_arg3) = Cert.KernelIdeal.Gen.W0 m ρ c (Proc.devRef .tc Cert.KernelIdeal.main_arg3) :=
  (Cert.KernelIdeal.Gen.W4_of_ne m ρ c Cert.KernelIdeal.main_arg3 (by decide)).trans (ker_keeps3_arg3 m ρ c)

theorem ker_keeps1_arg9 : Cert.KernelIdeal.Gen.W1 m ρ c (Proc.devRef .tc Cert.KernelIdeal.main_arg9) = Cert.KernelIdeal.Gen.W0 m ρ c (Proc.devRef .tc Cert.KernelIdeal.main_arg9) := by
  keeps
theorem ker_keeps2_arg9 : Cert.KernelIdeal.Gen.W2 m ρ c (Proc.devRef .tc Cert.KernelIdeal.main_arg9) = Cert.KernelIdeal.Gen.W0 m ρ c (Proc.devRef .tc Cert.KernelIdeal.main_arg9) :=
  (Cert.KernelIdeal.Gen.W2_of_ne m ρ c Cert.KernelIdeal.main_arg9 (by decide)).trans (ker_keeps1_arg9 m ρ c)
theorem ker_keeps3_arg9 : Cert.KernelIdeal.Gen.W3 m ρ c (Proc.devRef .tc Cert.KernelIdeal.main_arg9) = Cert.KernelIdeal.Gen.W0 m ρ c (Proc.devRef .tc Cert.KernelIdeal.main_arg9) :=
  (show Cert.KernelIdeal.Gen.W3 m ρ c (Proc.devRef .tc Cert.KernelIdeal.main_arg9) = Cert.KernelIdeal.Gen.W2 m ρ c (Proc.devRef .tc Cert.KernelIdeal.main_arg9) by keeps).trans (ker_keeps2_arg9 m ρ c)
theorem ker_keeps4_arg9 : Cert.KernelIdeal.Gen.W4 m ρ c (Proc.devRef .tc Cert.KernelIdeal.main_arg9) = Cert.KernelIdeal.Gen.W0 m ρ c (Proc.devRef .tc Cert.KernelIdeal.main_arg9) :=
  (Cert.KernelIdeal.Gen.W4_of_ne m ρ c Cert.KernelIdeal.main_arg9 (by decide)).trans (ker_keeps3_arg9 m ρ c)

theorem ker_keeps1_arg8 : Cert.KernelIdeal.Gen.W1 m ρ c (Proc.devRef .tc Cert.KernelIdeal.main_arg8) = Cert.KernelIdeal.Gen.W0 m ρ c (Proc.devRef .tc Cert.KernelIdeal.main_arg8) := by
  keeps
theorem ker_keeps2_arg8 : Cert.KernelIdeal.Gen.W2 m ρ c (Proc.devRef .tc Cert.KernelIdeal.main_arg8) = Cert.KernelIdeal.Gen.W0 m ρ c (Proc.devRef .tc Cert.KernelIdeal.main_arg8) :=
  (Cert.KernelIdeal.Gen.W2_of_ne m ρ c Cert.KernelIdeal.main_arg8 (by decide)).trans (ker_keeps1_arg8 m ρ c)
theorem ker_keeps3_arg8 : Cert.KernelIdeal.Gen.W3 m ρ c (Proc.devRef .tc Cert.KernelIdeal.main_arg8) = Cert.KernelIdeal.Gen.W0 m ρ c (Proc.devRef .tc Cert.KernelIdeal.main_arg8) :=
  (show Cert.KernelIdeal.Gen.W3 m ρ c (Proc.devRef .tc Cert.KernelIdeal.main_arg8) = Cert.KernelIdeal.Gen.W2 m ρ c (Proc.devRef .tc Cert.KernelIdeal.main_arg8) by keeps).trans (ker_keeps2_arg8 m ρ c)
theorem ker_keeps4_arg8 : Cert.KernelIdeal.Gen.W4 m ρ c (Proc.devRef .tc Cert.KernelIdeal.main_arg8) = Cert.KernelIdeal.Gen.W0 m ρ c (Proc.devRef .tc Cert.KernelIdeal.main_arg8) :=
  (Cert.KernelIdeal.Gen.W4_of_ne m ρ c Cert.KernelIdeal.main_arg8 (by decide)).trans (ker_keeps3_arg8 m ρ c)

/-- The output weights reach the last pallas_call as launched: none of the nine stretches before it writes them. -/
theorem ker_keeps13_arg8 : Cert.KernelIdeal.Gen.W13 m ρ c (Proc.devRef .tc Cert.KernelIdeal.main_arg8) = Cert.KernelIdeal.Gen.W0 m ρ c (Proc.devRef .tc Cert.KernelIdeal.main_arg8) :=
  (((((((((show Cert.KernelIdeal.Gen.W13 m ρ c (Proc.devRef .tc Cert.KernelIdeal.main_arg8) = Cert.KernelIdeal.Gen.W12 m ρ c (Proc.devRef .tc Cert.KernelIdeal.main_arg8) by keeps).trans (show Cert.KernelIdeal.Gen.W12 m ρ c (Proc.devRef .tc Cert.KernelIdeal.main_arg8) = Cert.KernelIdeal.Gen.W11 m ρ c (Proc.devRef .tc Cert.KernelIdeal.main_arg8) by keeps)).trans (show Cert.KernelIdeal.Gen.W11 m ρ c (Proc.devRef .tc Cert.KernelIdeal.main_arg8) = Cert.KernelIdeal.Gen.W10 m ρ c (Proc.devRef .tc Cert.KernelIdeal.main_arg8) by keeps)).trans (show Cert.KernelIdeal.Gen.W10 m ρ c (Proc.devRef .tc Cert.KernelIdeal.main_arg8) = Cert.KernelIdeal.Gen.W9 m ρ c (Proc.devRef .tc Cert.KernelIdeal.main_arg8) by keeps)).trans (show Cert.KernelIdeal.Gen.W9 m ρ c (Proc.devRef .tc Cert.KernelIdeal.main_arg8) = Cert.KernelIdeal.Gen.W8 m ρ c (Proc.devRef .tc Cert.KernelIdeal.main_arg8) by keeps)).trans (show Cert.KernelIdeal.Gen.W8 m ρ c (Proc.devRef .tc Cert.KernelIdeal.main_arg8) = Cert.KernelIdeal.Gen.W7 m ρ c (Proc.devRef .tc Cert.KernelIdeal.main_arg8) by keeps)).trans (show Cert.KernelIdeal.Gen.W7 m ρ c (Proc.devRef .tc Cert.KernelIdeal.main_arg8) = Cert.KernelIdeal.Gen.W6 m ρ c (Proc.devRef .tc Cert.KernelIdeal.main_arg8) by keeps)).trans (show Cert.KernelIdeal.Gen.W6 m ρ c (Proc.devRef .tc Cert.KernelIdeal.main_arg8) = Cert.KernelIdeal.Gen.W5 m ρ c (Proc.devRef .tc Cert.KernelIdeal.main_arg8) by keeps)).trans (show Cert.KernelIdeal.Gen.W5 m ρ c (Proc.devRef .tc Cert.KernelIdeal.main_arg8) = Cert.KernelIdeal.Gen.W4 m ρ c (Proc.devRef .tc Cert.KernelIdeal.main_arg8) by keeps)).trans (ker_keeps4_arg8 m ρ c)

/-! ## Down the program -/

variable (m' : (ℓ : Loc Cert.ReferenceIdeal.nD Cert.ReferenceIdeal.τ Cert.ReferenceIdeal.sig) → Buf (Elt Ideal) ℓ)

/-- The two launch memories hold the same ten arguments on core `c`. -/
abbrev Agrees : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

theorem launch_arg0 (h : Agrees m c m') : (launchContents m' c) (Proc.devRef .tc Cert.ReferenceIdeal.main_arg0) = Cert.KernelIdeal.Gen.W0 m ρ c (Proc.devRef .tc Cert.KernelIdeal.main_arg0) := h.1
theorem launch_arg1 (h : Agrees m c m') : (launchContents m' c) (Proc.devRef .tc Cert.ReferenceIdeal.main_arg1) = Cert.KernelIdeal.Gen.W0 m ρ c (Proc.devRef .tc Cert.KernelIdeal.main_arg1) := h.2.1
theorem launch_arg2 (h : Agrees m c m') : (launchContents m' c) (Proc.devRef .tc Cert.ReferenceIdeal.main_arg2) = Cert.KernelIdeal.Gen.W0 m ρ c (Proc.devRef .tc Cert.KernelIdeal.main_arg2) := h.2.2.1
theorem launch_arg3 (h : Agrees m c m') : (launchContents m' c) (Proc.devRef .tc Cert.ReferenceIdeal.main_arg3) = Cert.KernelIdeal.Gen.W0 m ρ c (Proc.devRef .tc Cert.KernelIdeal.main_arg3) := h.2.2.2.1
theorem launch_arg4 (h : Agrees m c m') : (launchContents m' c) (Proc.devRef .tc Cert.ReferenceIdeal.main_arg4) = Cert.KernelIdeal.Gen.W0 m ρ c (Proc.devRef .tc Cert.KernelIdeal.main_arg4) := h.2.2.2.2.1
theorem launch_arg5 (h : Agrees m c m') : (launchContents m' c) (Proc.devRef .tc Cert.ReferenceIdeal.main_arg5) = Cert.KernelIdeal.Gen.W0 m ρ c (Proc.devRef .tc Cert.KernelIdeal.main_arg5) := h.2.2.2.2.2.1
theorem launch_arg6 (h : Agrees m c m') : (launchContents m' c) (Proc.devRef .tc Cert.ReferenceIdeal.main_arg6) = Cert.KernelIdeal.Gen.W0 m ρ c (Proc.devRef .tc Cert.KernelIdeal.main_arg6) := h.2.2.2.2.2.2.1
theorem launch_arg7 (h : Agrees m c m') : (launchContents m' c) (Proc.devRef .tc Cert.ReferenceIdeal.main_arg7) = Cert.KernelIdeal.Gen.W0 m ρ c (Proc.devRef .tc Cert.KernelIdeal.main_arg7) := h.2.2.2.2.2.2.2.1
theorem launch_arg8 (h : Agrees m c m') : (launchContents m' c) (Proc.devRef .tc Cert.ReferenceIdeal.main_arg8) = Cert.KernelIdeal.Gen.W0 m ρ c (Proc.devRef .tc Cert.KernelIdeal.main_arg8) := h.2.2.2.2.2.2.2.2.1
theorem launch_arg9 (h : Agrees m c m') : (launchContents m' c) (Proc.devRef .tc Cert.ReferenceIdeal.main_arg9) = Cert.KernelIdeal.Gen.W0 m ρ c (Proc.devRef .tc Cert.KernelIdeal.main_arg9) := h.2.2.2.2.2.2.2.2.2

/-- Before layer 1: the normalized neighbour sums agree. -/
theorem layer1_in (h : Agrees m c m') :
    (after (Cert.ReferenceIdeal.Hand.stretchA (F := Ideal)) (launchContents m' c)) (Proc.devRef .tc Cert.ReferenceIdeal.main_v20) = (Cert.KernelIdeal.Gen.V1 m ρ) c Cert.KernelIdeal.main_v20 :=
  stretchA_value (Cert.KernelIdeal.Gen.W0 m ρ c) (launchContents m' c) (launch_arg0 m ρ c m' h) (launch_arg1 m ρ c m' h) (launch_arg2 m ρ c m' h)

/-- The reciprocal in-degrees agree. -/
theorem invdeg_eq (h : Agrees m c m') :
    (after (Cert.ReferenceIdeal.Hand.stretchA (F := Ideal)) (launchContents m' c)) (Proc.devRef .tc Cert.ReferenceIdeal.main_v7) = Cert.KernelIdeal.Gen.W1 m ρ c (Proc.devRef .tc Cert.KernelIdeal.main_v7) :=
  stretchA_invdeg (Cert.KernelIdeal.Gen.W0 m ρ c) (launchContents m' c) (launch_arg2 m ρ c m' h)

/-- Layer 1's outputs agree: one dense function of agreeing inputs. -/
theorem layer1_out (h : Agrees m c m') :
    (after (Cert.ReferenceIdeal.Hand.denseA (F := Ideal)) (after (Cert.ReferenceIdeal.Hand.stretchA (F := Ideal)) (launchContents m' c))) (Proc.devRef .tc Cert.ReferenceIdeal.main_v25) = Cert.KernelIdeal.Gen.W2 m ρ c (Proc.devRef .tc Cert.KernelIdeal.main_v22) := by
  refine (denseA_value (after (Cert.ReferenceIdeal.Hand.stretchA (F := Ideal)) (launchContents m' c))).trans ?_
  refine Eq.trans ?_ (Cert.KernelIdeal.Gen.W2_arr m ρ c 3).symm
  refine Eq.trans ?_ (Cert.KernelIdeal.DenseValue.region0_value (Cert.KernelIdeal.Gen.V1 m ρ) c).symm
  have e1 : (after (Cert.ReferenceIdeal.Hand.stretchA (F := Ideal)) (launchContents m' c)) (Proc.devRef .tc Cert.ReferenceIdeal.main_v20) = (Cert.KernelIdeal.Gen.V1 m ρ) c Cert.KernelIdeal.main_v20 := layer1_in m ρ c m' h
  have e2 : (after (Cert.ReferenceIdeal.Hand.stretchA (F := Ideal)) (launchContents m' c)) (Proc.devRef .tc Cert.ReferenceIdeal.main_arg4) = (Cert.KernelIdeal.Gen.V1 m ρ) c Cert.KernelIdeal.main_arg4 :=
    (ref_keeps1_arg4 (launchContents m' c)).trans ((launch_arg4 m ρ c m' h).trans (ker_keeps1_arg4 m ρ c).symm)
  have e3 : (fun q : Fin 128 => (after (Cert.ReferenceIdeal.Hand.stretchA (F := Ideal)) (launchContents m' c)) (Proc.devRef .tc Cert.ReferenceIdeal.main_arg5) (ix1 q))
      = (fun q : Fin 128 => (Cert.KernelIdeal.Gen.V1 m ρ) c Cert.KernelIdeal.main_v21 (ix2 (0 : Fin 1) q)) :=
    funext fun q => (congrFun ((ref_keeps1_arg5 (launchContents m' c)).trans (launch_arg5 m ρ c m' h)) (ix1 q)).trans (kernel_biasA (Cert.KernelIdeal.Gen.W0 m ρ c) q).symm
  rw [e1, e2, e3]

/-- Before layer 2: the normalized neighbour sums of layer 1's outputs agree. -/
theorem layer2_in (h : Agrees m c m') :
    (after (Cert.ReferenceIdeal.Hand.stretchB (F := Ideal)) (after (Cert.ReferenceIdeal.Hand.denseA (F := Ideal)) (after (Cert.ReferenceIdeal.Hand.stretchA (F := Ideal)) (launchContents m' c)))) (Proc.devRef .tc Cert.ReferenceIdeal.main_v38) = (Cert.KernelIdeal.Gen.V3 m ρ) c Cert.KernelIdeal.main_v35 :=
  stretchB_value (Cert.KernelIdeal.Gen.W2 m ρ c) (after (Cert.ReferenceIdeal.Hand.denseA (F := Ideal)) (after (Cert.ReferenceIdeal.Hand.stretchA (F := Ideal)) (launchContents m' c))) (layer1_out m ρ c m' h)
    ((ref_keeps2_arg1 (launchContents m' c)).trans ((launch_arg1 m ρ c m' h).trans (ker_keeps2_arg1 m ρ c).symm))
    ((ref_keeps2_arg2 (launchContents m' c)).trans ((launch_arg2 m ρ c m' h).trans (ker_keeps2_arg2 m ρ c).symm))
    ((show (after (Cert.ReferenceIdeal.Hand.denseA (F := Ideal)) (after (Cert.ReferenceIdeal.Hand.stretchA (F := Ideal)) (launchContents m' c))) (Proc.devRef .tc Cert.ReferenceIdeal.main_v7) = (after (Cert.ReferenceIdeal.Hand.stretchA (F := Ideal)) (launchContents m' c)) (Proc.devRef .tc Cert.ReferenceIdeal.main_v7) by keeps).trans
      ((invdeg_eq m ρ c m' h).trans (Cert.KernelIdeal.Gen.W2_of_ne m ρ c Cert.KernelIdeal.main_v7 (by decide)).symm))

/-- Layer 2's outputs agree. -/
theorem layer2_out (h : Agrees m c m') :
    (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c))))) (Proc.devRef .tc Cert.ReferenceIdeal.main_v43) = Cert.KernelIdeal.Gen.W4 m ρ c (Proc.devRef .tc Cert.KernelIdeal.main_v37) := by
  refine (denseB_value (after (Cert.ReferenceIdeal.Hand.stretchB (F := Ideal)) (after (Cert.ReferenceIdeal.Hand.denseA (F := Ideal)) (after (Cert.ReferenceIdeal.Hand.stretchA (F := Ideal)) (launchContents m' c))))).trans ?_
  refine Eq.trans ?_ (Cert.KernelIdeal.Gen.W4_arr m ρ c 3).symm
  refine Eq.trans ?_ (Cert.KernelIdeal.DenseValue.region1_value (Cert.KernelIdeal.Gen.V3 m ρ) c).symm
  have e1 : (after (Cert.ReferenceIdeal.Hand.stretchB (F := Ideal)) (after (Cert.ReferenceIdeal.Hand.denseA (F := Ideal)) (after (Cert.ReferenceIdeal.Hand.stretchA (F := Ideal)) (launchContents m' c)))) (Proc.devRef .tc Cert.ReferenceIdeal.main_v38) = (Cert.KernelIdeal.Gen.V3 m ρ) c Cert.KernelIdeal.main_v35 := layer2_in m ρ c m' h
  have e2 : (after (Cert.ReferenceIdeal.Hand.stretchB (F := Ideal)) (after (Cert.ReferenceIdeal.Hand.denseA (F := Ideal)) (after (Cert.ReferenceIdeal.Hand.stretchA (F := Ideal)) (launchContents m' c)))) (Proc.devRef .tc Cert.ReferenceIdeal.main_arg6) = (Cert.KernelIdeal.Gen.V3 m ρ) c Cert.KernelIdeal.main_arg6 :=
    (ref_keeps3_arg6 (launchContents m' c)).trans ((launch_arg6 m ρ c m' h).trans (ker_keeps3_arg6 m ρ c).symm)
  have e3 : (fun q : Fin 128 => (after (Cert.ReferenceIdeal.Hand.stretchB (F := Ideal)) (after (Cert.ReferenceIdeal.Hand.denseA (F := Ideal)) (after (Cert.ReferenceIdeal.Hand.stretchA (F := Ideal)) (launchContents m' c)))) (Proc.devRef .tc Cert.ReferenceIdeal.main_arg7) (ix1 q))
      = (fun q : Fin 128 => (Cert.KernelIdeal.Gen.V3 m ρ) c Cert.KernelIdeal.main_v36 (ix2 (0 : Fin 1) q)) :=
    funext fun q => (congrFun ((ref_keeps3_arg7 (launchContents m' c)).trans ((launch_arg7 m ρ c m' h).trans (ker_keeps2_arg7 m ρ c).symm)) (ix1 q)).trans
      (kernel_biasB (Cert.KernelIdeal.Gen.W2 m ρ c) q).symm
  rw [e1, e2, e3]

/-- The pooled means agree. -/
theorem pooled_eq (h : Agrees m c m') :
    (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c)))))) (Proc.devRef .tc Cert.ReferenceIdeal.main_v70) = (Cert.KernelIdeal.Gen.V13 m ρ) c Cert.KernelIdeal.main_v64 :=
  stretchC_value (Cert.KernelIdeal.Gen.W4 m ρ c) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c))))) (layer2_out m ρ c m' h)
    ((ref_keeps4_arg3 (launchContents m' c)).trans ((launch_arg3 m ρ c m' h).trans (ker_keeps4_arg3 m ρ c).symm))

/-- THE RESULTS AGREE: the reference's result buffer after its whole line is the kernel program's result buffer at its
    last segment boundary. -/
theorem result_eq (h : Agrees m c m') :
    after (Cert.ReferenceIdeal.Hand.ops (F := Ideal)) (launchContents m' c) (Proc.devRef .tc Cert.ReferenceIdeal.main_v74) = Cert.KernelIdeal.Gen.W14 m ρ c (Proc.devRef .tc Cert.KernelIdeal.main_v66) := by
  rw [ref_ops_run]
  refine (denseC_value (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c))))))).trans ?_
  refine Eq.trans ?_ (Cert.KernelIdeal.Gen.W14_arr m ρ c 3).symm
  refine Eq.trans ?_ (Cert.KernelIdeal.DenseValue.region2_value (Cert.KernelIdeal.Gen.V13 m ρ) c).symm
  have e1 : (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c)))))) (Proc.devRef .tc Cert.ReferenceIdeal.main_v70) = (Cert.KernelIdeal.Gen.V13 m ρ) c Cert.KernelIdeal.main_v64 := pooled_eq m ρ c m' h
  have e2 : (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c)))))) (Proc.devRef .tc Cert.ReferenceIdeal.main_arg8) = (Cert.KernelIdeal.Gen.V13 m ρ) c Cert.KernelIdeal.main_arg8 :=
    (ref_keeps5_arg8 (launchContents m' c)).trans ((launch_arg8 m ρ c m' h).trans (ker_keeps13_arg8 m ρ c).symm)
  have e3 : (fun q : Fin 64 => (after (Cert.ReferenceIdeal.Hand.stretchC (F := Ideal)) (after (Cert.ReferenceIdeal.Hand.denseB (F := Ideal)) (after (Cert.ReferenceIdeal.Hand.stretchB (F := Ideal)) (after (Cert.ReferenceIdeal.Hand.denseA (F := Ideal)) (after (Cert.ReferenceIdeal.Hand.stretchA (F := Ideal)) (launchContents m' c)))))) (Proc.devRef .tc Cert.ReferenceIdeal.main_arg9) (ix1 q))
      = (fun q : Fin 64 => (Cert.KernelIdeal.Gen.V13 m ρ) c Cert.KernelIdeal.main_v65 (ix2 (0 : Fin 1) q)) :=
    funext fun q => (congrFun ((ref_keeps5_arg9 (launchContents m' c)).trans ((launch_arg9 m ρ c m' h).trans (ker_keeps4_arg9 m ρ c).symm)) (ix1 q)).trans
      (kernel_biasC (Cert.KernelIdeal.Gen.W4 m ρ c) q).symm
  rw [e1, e2, e3]

end Kernel

end Cert.Bridge

end
-- ==== Proof.lean ====
/-
  A two-layer graph convolution with mean pooling: the Pallas program against the plain jnp reference, equal at the
  extended reals.

  Both programs compute, for node features x, sender and receiver index arrays, node counts per graph and three
  weight/bias pairs,

      a₁ = D⁻¹ · (sum over receivers of the senders' rows of x),      h₁ = max (a₁ · W₁ + b₁) 0,
      a₂ = D⁻¹ · (the same sum over h₁),                               h₂ = max (a₂ · W₂ + b₂) 0,
      p  = (sum of h₂'s rows per graph) / max (node count) 1,          result = p · W_out + b_out,

  with D the in-degree clamped below at 1. Everything but the three dense stages is the same host code in both
  programs. The Pallas program runs each dense stage as a pallas_call over blocks of rows (5000 rows at a time for the
  two layers, 400 for the output), casting to bf16 and accumulating in f32; the reference runs it as one dot_general.
  At the extended reals a change of float format is the identity and a matrix product is the plain sum over the
  contracted index, so each dense stage is the same function of its three inputs in both programs (Proof/DenseSpec.lean:
  the kernel's side in Proof/DenseRegion0–2.lean, the reference's in Proof/RefDense.lean), and equality is carried
  down the program one stretch at a time (Proof/BridgeStretches.lean, Proof/Bridge.lean). No law of the extended reals
  beyond rewriting equals by equals is used: the sums are over the same index in the same order of terms, so the
  precondition (finite inputs) is never opened.

  The frames of the two kernel programs are the generated ones. The reference's frame and run are read off its 125 host
  operations (Proof/RefOps.lean, Proof/RefRun.lean); the kernel program's run with its result named is the generated
  frame's launch called once more (Proof/KernelRun.lean). Nothing was rewritten by the ideal pass, so the preservation
  claim is `True`.
-/
import proofs.«127578_j4595615007149_1_alg».proof.Defs
import proofs.«127578_j4595615007149_1_alg».proof.Proof.Gen.Kernel
import proofs.«127578_j4595615007149_1_alg».proof.Proof.Gen.Kernel.Skeleton
import proofs.«127578_j4595615007149_1_alg».proof.Proof.Gen.Kernel.Launch
import proofs.«127578_j4595615007149_1_alg».proof.Proof.Gen.Kernel.Points
import proofs.«127578_j4595615007149_1_alg».proof.Proof.Gen.Kernel.Frame
import proofs.«127578_j4595615007149_1_alg».proof.Proof.Gen.KernelIdeal
import proofs.«127578_j4595615007149_1_alg».proof.Proof.Gen.KernelIdeal.Skeleton
import proofs.«127578_j4595615007149_1_alg».proof.Proof.Gen.KernelIdeal.Launch
import proofs.«127578_j4595615007149_1_alg».proof.Proof.Gen.KernelIdeal.Points
import proofs.«127578_j4595615007149_1_alg».proof.Proof.Gen.KernelIdeal.Frame
import proofs.«127578_j4595615007149_1_alg».proof.Proof.Gen.ReferenceIdeal
import proofs.«127578_j4595615007149_1_alg».proof.Proof.Gen.Pre_finite_inputs
import proofs.«127578_j4595615007149_1_alg».proof.Proof.KernelRun
import proofs.«127578_j4595615007149_1_alg».proof.Proof.RefRun
import proofs.«127578_j4595615007149_1_alg».proof.Proof.Bridge
import Idealize.ShloMosaic.Adequacy
import Idealize.ShloMosaic.Init

noncomputable section

namespace Cert.Proof

open Idealize.ShloMosaic Idealize.ShloMosaic.StableHlo Idealize.SL.Sem

/-- The reference runs and leaves its arguments as launched: its line of host operations writes none of them. -/
theorem frame_reference : Cert.frame_ReferenceIdeal := fun m ρ _ =>
  (θ_run Cert.ReferenceIdeal.defs _ _).mono (fun _ h c =>
    ⟨(h c Cert.ReferenceIdeal.main_arg0).trans (Cert.Bridge.ref_ops_arg0 _),
      (h c Cert.ReferenceIdeal.main_arg1).trans (Cert.Bridge.ref_ops_arg1 _),
      (h c Cert.ReferenceIdeal.main_arg2).trans (Cert.Bridge.ref_ops_arg2 _),
      (h c Cert.ReferenceIdeal.main_arg3).trans (Cert.Bridge.ref_ops_arg3 _),
      (h c Cert.ReferenceIdeal.main_arg4).trans (Cert.Bridge.ref_ops_arg4 _),
      (h c Cert.ReferenceIdeal.main_arg5).trans (Cert.Bridge.ref_ops_arg5 _),
      (h c Cert.ReferenceIdeal.main_arg6).trans (Cert.Bridge.ref_ops_arg6 _),
      (h c Cert.ReferenceIdeal.main_arg7).trans (Cert.Bridge.ref_ops_arg7 _),
      (h c Cert.ReferenceIdeal.main_arg8).trans (Cert.Bridge.ref_ops_arg8 _),
      (h c Cert.ReferenceIdeal.main_arg9).trans (Cert.Bridge.ref_ops_arg9 _)⟩)
    (Cert.ReferenceIdeal.Hand.run_main (F := Ideal) m ρ)

/-- From memories that agree on the arguments both idealized programs run; the kernel program's result is its last
    boundary's contents at the result buffer, and the reference's result, the fold of its operations, is that same
    array. -/
theorem algebraic : Cert.algebraic_KernelIdeal_ReferenceIdeal := by
  intro m ρ m' ρ' _ hagree
  refine ⟨fun c => Cert.KernelIdeal.Gen.W14 m ρ c (Proc.devRef .tc Cert.KernelIdeal.main_v66),
    Cert.KernelIdeal.RunValue.run_value (F := Ideal) m ρ, ?_⟩
  exact (θ_run Cert.ReferenceIdeal.defs _ _).mono (fun _ h c =>
    ⟨(h c Cert.ReferenceIdeal.main_v74).trans (Cert.Bridge.result_eq m ρ c m' (hagree c)),
      (h c Cert.ReferenceIdeal.main_arg0).trans (Cert.Bridge.ref_ops_arg0 _),
      (h c Cert.ReferenceIdeal.main_arg1).trans (Cert.Bridge.ref_ops_arg1 _),
      (h c Cert.ReferenceIdeal.main_arg2).trans (Cert.Bridge.ref_ops_arg2 _),
      (h c Cert.ReferenceIdeal.main_arg3).trans (Cert.Bridge.ref_ops_arg3 _),
      (h c Cert.ReferenceIdeal.main_arg4).trans (Cert.Bridge.ref_ops_arg4 _),
      (h c Cert.ReferenceIdeal.main_arg5).trans (Cert.Bridge.ref_ops_arg5 _),
      (h c Cert.ReferenceIdeal.main_arg6).trans (Cert.Bridge.ref_ops_arg6 _),
      (h c Cert.ReferenceIdeal.main_arg7).trans (Cert.Bridge.ref_ops_arg7 _),
      (h c Cert.ReferenceIdeal.main_arg8).trans (Cert.Bridge.ref_ops_arg8 _),
      (h c Cert.ReferenceIdeal.main_arg9).trans (Cert.Bridge.ref_ops_arg9 _)⟩)
    (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
